-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 19#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x128 : Shape := ⟨2, ![262144, 128]⟩
abbrev S262144 : Shape := ⟨1, ![262144]⟩
abbrev S262144x1 : Shape := ⟨2, ![262144, 1]⟩
abbrev S2x19x128 : Shape := ⟨3, ![2, 19, 128]⟩
abbrev S8192x128 : Shape := ⟨2, ![8192, 128]⟩
abbrev S8192x1 : Shape := ⟨2, ![8192, 1]⟩
abbrev S1x19x128 : Shape := ⟨3, ![1, 19, 128]⟩
abbrev S1x19 : Shape := ⟨2, ![1, 19]⟩
abbrev S8192x19 : Shape := ⟨2, ![8192, 19]⟩
abbrev S19x128 : Shape := ⟨2, ![19, 128]⟩
abbrev S_ : Shape := ⟨0, ![]⟩
abbrev S19 : Shape := ⟨1, ![19]⟩
abbrev S19x1 : Shape := ⟨2, ![19, 1]⟩
abbrev S2x1x1 : Shape := ⟨3, ![2, 1, 1]⟩
abbrev S1x1x1 : Shape := ⟨3, ![1, 1, 1]⟩
abbrev S8192 : Shape := ⟨1, ![8192]⟩
abbrev S1 : Shape := ⟨1, ![1]⟩
abbrev S1x1 : Shape := ⟨2, ![1, 1]⟩

abbrev nBuf : Space → Nat
  | .hbm => 35
  | .vmem => 13
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x1, .i32⟩
  | .hbm, ⟨3, _⟩ => ⟨S2x19x128, .f32⟩
  | .hbm, ⟨4, _⟩ => ⟨S_, .f32⟩
  | .hbm, ⟨5, _⟩ => ⟨S19x128, .f32⟩
  | .hbm, ⟨6, _⟩ => ⟨S_, .f32⟩
  | .hbm, ⟨7, _⟩ => ⟨S262144, .f32⟩
  | .hbm, ⟨8, _⟩ => ⟨S_, .f32⟩
  | .hbm, ⟨9, _⟩ => ⟨S19, .f32⟩
  | .hbm, ⟨10, _⟩ => ⟨S262144x1, .i32⟩
  | .hbm, ⟨11, _⟩ => ⟨S19, .f32⟩
  | .hbm, ⟨12, _⟩ => ⟨S19x1, .f32⟩
  | .hbm, ⟨13, _⟩ => ⟨S_, .f32⟩
  | .hbm, ⟨14, _⟩ => ⟨S19x1, .f32⟩
  | .hbm, ⟨15, _⟩ => ⟨S19x1, .i1⟩
  | .hbm, ⟨16, _⟩ => ⟨S_, .f32⟩
  | .hbm, ⟨17, _⟩ => ⟨S_, .f32⟩
  | .hbm, ⟨18, _⟩ => ⟨S19x1, .f32⟩
  | .hbm, ⟨19, _⟩ => ⟨S19x1, .f32⟩
  | .hbm, ⟨20, _⟩ => ⟨S_, .f32⟩
  | .hbm, ⟨21, _⟩ => ⟨S19x1, .f32⟩
  | .hbm, ⟨22, _⟩ => ⟨S19x1, .i1⟩
  | .hbm, ⟨23, _⟩ => ⟨S19x128, .f32⟩
  | .hbm, ⟨24, _⟩ => ⟨S19x128, .f32⟩
  | .hbm, ⟨25, _⟩ => ⟨S_, .f32⟩
  | .hbm, ⟨26, _⟩ => ⟨S_, .f32⟩
  | .hbm, ⟨27, _⟩ => ⟨S19x128, .i1⟩
  | .hbm, ⟨28, _⟩ => ⟨S19x128, .f32⟩
  | .hbm, ⟨29, _⟩ => ⟨S19x128, .f32⟩
  | .hbm, ⟨30, _⟩ => ⟨S2x1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S1x19x128, .f32⟩
  | .local _ .vmem, ⟨5, _⟩ => ⟨S1x19x128, .f32⟩
  | .local _ .vmem, ⟨6, _⟩ => ⟨S8192x128, .f32⟩
  | .local _ .vmem, ⟨7, _⟩ => ⟨S8192x128, .f32⟩
  | .local _ .vmem, ⟨8, _⟩ => ⟨S8192x1, .i32⟩
  | .local _ .vmem, ⟨9, _⟩ => ⟨S8192x1, .i32⟩
  | .local _ .vmem, ⟨10, _⟩ => ⟨S19x128, .f32⟩
  | .local _ .vmem, ⟨11, _⟩ => ⟨S1x1x1, .f32⟩
  | .local _ .vmem, ⟨12, _⟩ => ⟨S1x1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S19x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S262144_S262144x1 : S262144.ShapeCasts S262144x1
  inb_S1x19x128_S1x19x128_0_0_0 : ∀ a, (![0, 0, 0] : Fin 3 → Nat) a + S1x19x128.size a ≤ S1x19x128.size a
  h_S1x19x128 : 0 < S1x19x128.numel
  inb_S8192x128_S8192x128_0_0 : ∀ a, (![0, 0] : Fin 2 → Nat) a + S8192x128.size a ≤ S8192x128.size a
  h_S8192x128 : 0 < S8192x128.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S1x19_d1_w32 : S1x19.Iotas .tc 32 [1]
  broadcasts_S8192x1_S8192x19 : S8192x1.Broadcasts S8192x19
  broadcasts_S1x19_S8192x19 : S1x19.Broadcasts S8192x19
  natLt_1_32 : 1 < 32
  shapeCasts_S1x19x128_S1x19x128 : S1x19x128.ShapeCasts S1x19x128
  shapeCasts_S19x128_S1x19x128 : S19x128.ShapeCasts S1x19x128
  reducesTo_S2x19x128_S19x128_d0 : S2x19x128.ReducesTo [0] S19x128
  h_S_ : 0 < S_.numel
  bcast_S_S262144 : S_.BroadcastsInDim S262144 (![] : Fin 0 → Fin S262144.rank)
  bcast_S_S19 : S_.BroadcastsInDim S19 (![] : Fin 0 → Fin S19.rank)
  bcast_S262144_S262144x1_0 : S262144.BroadcastsInDim S262144x1 (![0] : Fin 1 → Fin S262144x1.rank)
  bcast_S19_S19x1_0 : S19.BroadcastsInDim S19x1 (![0] : Fin 1 → Fin S19x1.rank)
  bcast_S_S19x1 : S_.BroadcastsInDim S19x1 (![] : Fin 0 → Fin S19x1.rank)
  bcast_S19x1_S19x128_0_1 : S19x1.BroadcastsInDim S19x128 (![0, 1] : Fin 2 → Fin S19x128.rank)
  bcast_S_S19x128 : S_.BroadcastsInDim S19x128 (![] : Fin 0 → Fin S19x128.rank)
  inb_S1x1x1_S1x1x1_0_0_0 : ∀ a, (![0, 0, 0] : Fin 3 → Nat) a + S1x1x1.size a ≤ S1x1x1.size a
  h_S1x1x1 : 0 < S1x1x1.numel
  inb_S19x128_S19x128_0_0 : ∀ a, (![0, 0] : Fin 2 → Nat) a + S19x128.size a ≤ S19x128.size a
  h_S19x128 : 0 < S19x128.numel
  shapeCasts_S19x128_S19x128 : S19x128.ShapeCasts S19x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  dot_S8192x19_S8192x128_S19x128_0_0_1_1_n_n_wf : DotDims.WF S8192x19 S8192x128 S19x128 [0] [0] [1] [1] [] []
  scatter_S19_S262144x1_S262144_n_0_0_1_wf : ScatterDims.WF S19 S262144x1 S262144 [] [0] [0] 1
  dot_S8192x19_S19x128_S8192x128_1_0_0_1_n_n_wf : DotDims.WF S8192x19 S19x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x128.size a ≤ S2x19x128.size a
  hwx0_2 : ∀ i : grid0.Coords, EltTy.bits .f32 = 32 ∨ (Rect.block (s := S2x19x128) S1x19x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S262144x1.size a
  hwx1_1 : ∀ i : grid1.Coords, EltTy.bits .i32 = 32 ∨ (Rect.block (s := S262144x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S19x128.size a ≤ S19x128.size a
  hwx1_2 : ∀ i : grid1.Coords, EltTy.bits .f32 = 32 ∨ (Rect.block (s := S19x128) S19x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S8192x19_S8192x128_S19x128_0_0_1_1_n_n : DotDims S8192x19 S8192x128 S19x128 where
  lhsContracting := [0]
  rhsContracting := [0]
  lhsNonContracting := [1]
  rhsNonContracting := [1]
  lhsBatch := []
  rhsBatch := []
  wf := dot_S8192x19_S8192x128_S19x128_0_0_1_1_n_n_wf
def scatter_S19_S262144x1_S262144_n_0_0_1 : ScatterDims S19 S262144x1 S262144 where
  updateWindowDims := []
  insertedWindowDims := [0]
  scatterDimsToOperandDims := [0]
  indexVectorDim := 1
  wf := scatter_S19_S262144x1_S262144_n_0_0_1_wf
def dot_S8192x19_S19x128_S8192x128_1_0_0_1_n_n : DotDims S8192x19 S19x128 S8192x128 where
  lhsContracting := [1]
  rhsContracting := [0]
  lhsNonContracting := [0]
  rhsNonContracting := [1]
  lhsBatch := []
  rhsBatch := []
  wf := dot_S8192x19_S19x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x19x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S19x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x128 : Shape := ⟨2, ![262144, 128]⟩
abbrev S262144 : Shape := ⟨1, ![262144]⟩
abbrev S_ : Shape := ⟨0, ![]⟩
abbrev S19x128 : Shape := ⟨2, ![19, 128]⟩
abbrev S262144x1 : Shape := ⟨2, ![262144, 1]⟩
abbrev S19 : Shape := ⟨1, ![19]⟩
abbrev S19x1 : Shape := ⟨2, ![19, 1]⟩

abbrev nBuf : Space → Nat
  | .hbm => 33
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S_, .f32⟩
  | .hbm, ⟨3, _⟩ => ⟨S19x128, .f32⟩
  | .hbm, ⟨4, _⟩ => ⟨S262144x1, .i32⟩
  | .hbm, ⟨5, _⟩ => ⟨S19x128, .f32⟩
  | .hbm, ⟨6, _⟩ => ⟨S_, .f32⟩
  | .hbm, ⟨7, _⟩ => ⟨S262144, .f32⟩
  | .hbm, ⟨8, _⟩ => ⟨S_, .f32⟩
  | .hbm, ⟨9, _⟩ => ⟨S19, .f32⟩
  | .hbm, ⟨10, _⟩ => ⟨S262144x1, .i32⟩
  | .hbm, ⟨11, _⟩ => ⟨S19, .f32⟩
  | .hbm, ⟨12, _⟩ => ⟨S19x1, .f32⟩
  | .hbm, ⟨13, _⟩ => ⟨S19x128, .f32⟩
  | .hbm, ⟨14, _⟩ => ⟨S19x128, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144, .f32⟩
  | .hbm, ⟨28, _⟩ => ⟨S262144, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S19x128 : S_.BroadcastsInDim S19x128 (![] : Fin 0 → Fin S19x128.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S19 : S_.BroadcastsInDim S19 (![] : Fin 0 → Fin S19.rank)
  bcast_S19_S19x1_0 : S19.BroadcastsInDim S19x1 (![0] : Fin 1 → Fin S19x1.rank)
  bcast_S19x1_S19x128_0_1 : S19x1.BroadcastsInDim S19x128 (![0, 1] : Fin 2 → Fin S19x128.rank)
  reducesTo_S262144x128_S262144_d1 : S262144x128.ReducesTo [1] S262144
  h_S_ : 0 < S_.numel
  reducesTo_S262144_S_d0 : S262144.ReducesTo [0] S_
  scatter_S19x128_S262144x1_S262144x128_1_0_0_1_wf : ScatterDims.WF S19x128 S262144x1 S262144x128 [1] [0] [0] 1
  scatter_S19_S262144x1_S262144_n_0_0_1_wf : ScatterDims.WF S19 S262144x1 S262144 [] [0] [0] 1
  gather_S19x128_S262144x1_S262144x128_1_0_n_n_0_1_1128_wf : GatherDims.WF S19x128 S262144x1 S262144x128 [1] [0] [] [0] [] 1 ![1, 128]

variable [Facts₀]

def scatter_S19x128_S262144x1_S262144x128_1_0_0_1 : ScatterDims S19x128 S262144x1 S262144x128 where
  updateWindowDims := [1]
  insertedWindowDims := [0]
  scatterDimsToOperandDims := [0]
  indexVectorDim := 1
  wf := scatter_S19x128_S262144x1_S262144x128_1_0_0_1_wf
def scatter_S19_S262144x1_S262144_n_0_0_1 : ScatterDims S19 S262144x1 S262144 where
  updateWindowDims := []
  insertedWindowDims := [0]
  scatterDimsToOperandDims := [0]
  indexVectorDim := 1
  wf := scatter_S19_S262144x1_S262144_n_0_0_1_wf
def gather_S19x128_S262144x1_S262144x128_1_0_n_n_0_1_1128 : GatherDims S19x128 S262144x1 S262144x128 where
  offsetDims := [1]
  collapsedSliceDims := [0]
  operandBatchingDims := []
  startIndicesBatchingDims := []
  startIndexMap := [0]
  indexVectorDim := 1
  sliceSizes := ![1, 128]
  wf := gather_S19x128_S262144x1_S262144x128_1_0_n_n_0_1_1128_wf

class Facts : Prop extends Facts₀ where

variable [Facts]
-- ==== Proof.Spec.lean ====
/-
  The loss both programs compute, as one function of the two argument arrays over the extended reals, and the
  summation facts that carry a row-blocked, point-by-point accumulation to a single sum over all rows.

  For inputs x : [262144, 128] and labels t : [262144] (32-bit words), with a class count cnt k for each of the 19 classes:
    hot w k        = 1 if the word w is the class number k, else 0
    segsum k d     = ∑ᵢ hot (tᵢ) k · x[i, d]                      (the sum of the rows labelled k)
    center k d     = segsum k d / cnt k  if cnt k > 0, else 0      (the class mean; an empty class gets the zero row)
    picked i d     = ∑ₖ hot (tᵢ) k · center k d                    (row i's own class mean, picked by a one-hot product)
    dist i         = √ ∑_d (x[i, d] − picked i d)²
    loss           = (∑ᵢ dist i) / 262144
-/
import Idealize.ShloMosaic.Lib.ValueIdx
import Idealize.ShloMosaic.PureOps.Ideal.Laws

noncomputable section

open scoped BigOperators

namespace Cert.PixelLoss

open Idealize.ShloMosaic Idealize.ShloMosaic.ValueIdx

/-- The input rows, as an array of extended reals. -/
abbrev Rows := (⟨2, ![262144, 128]⟩ : Shape).Idx → EReal
/-- The labels, as an array of 32-bit words. -/
abbrev Labels := (⟨1, ![262144]⟩ : Shape).Idx → BitVec 32

/-- The one-hot weight of the word `w` at class `k`. -/
def hot (w : BitVec 32) (k : Fin 19) : EReal := if w = BitVec.ofNat 32 k.val then 1 else 0

/-- The sum of the rows labelled `k`, at feature `d`. -/
def segsum (x : Rows) (t : Labels) (k : Fin 19) (d : Fin 128) : EReal :=
  ∑ i : Fin 262144, hot (t (ix1 i)) k * x (ix2 i d)

/-- The class mean: the zero row for a class whose count is not positive. -/
def center (cnt : Fin 19 → EReal) (x : Rows) (t : Labels) (k : Fin 19) (d : Fin 128) : EReal :=
  if 0 < cnt k then Ideal.div (segsum x t k d) (cnt k) else 0

/-- Row `i`'s own class mean, picked by the one-hot product over the classes. -/
def picked (cnt : Fin 19 → EReal) (x : Rows) (t : Labels) (i : Fin 262144) (d : Fin 128) : EReal :=
  ∑ k : Fin 19, hot (t (ix1 i)) k * center cnt x t k d

/-- Row `i`'s distance to its class mean. -/
def dist (cnt : Fin 19 → EReal) (x : Rows) (t : Labels) (i : Fin 262144) : EReal :=
  Ideal.sqrt (∑ d : Fin 128, (x (ix2 i d) - picked cnt x t i d) * (x (ix2 i d) - picked cnt x t i d))

/-- The mean distance. -/
def loss (cnt : Fin 19 → EReal) (x : Rows) (t : Labels) : EReal :=
  Ideal.div (∑ i : Fin 262144, dist cnt x t i) (Ideal.ofBits .f32 0x48800000#32)

/-! ## One-hot sums -/

/-- A one-hot product over the classes picks the term of the word's class, when the word is a class number. -/
theorem sum_hot_mul (w : BitVec 32) (h : w.toNat < 19) (f : Fin 19 → EReal) :
    ∑ k : Fin 19, hot w k * f k = f ⟨w.toNat, h⟩ := by
  rw [Finset.sum_eq_single (⟨w.toNat, h⟩ : Fin 19)]
  · -- the word is the class number of its own value
    have hw : w = BitVec.ofNat 32 w.toNat := by
      apply BitVec.eq_of_toNat_eq
      rw [BitVec.toNat_ofNat, Nat.mod_eq_of_lt (by omega)]
    simp only [hot]
    rw [if_pos hw, one_mul]
  · -- every other class has weight zero, and zero times anything (an infinity included) is zero
    intro k _ hk
    have hne : ¬ w = BitVec.ofNat 32 k.val := by
      intro hw
      apply hk
      apply Fin.ext
      have h2 := congrArg BitVec.toNat hw
      rw [BitVec.toNat_ofNat, Nat.mod_eq_of_lt (by have := k.isLt; omega)] at h2
      exact h2.symm
    simp only [hot]
    rw [if_neg hne, zero_mul]
  · intro h'
    exact absurd (Finset.mem_univ _) h'

/-! ## Accumulation over grid points, reset every 16th -/

/-- The running value of an accumulator that is reset to the tile's value at the points divisible by 16 and
    otherwise adds the tile's value to what the point before left. -/
def runAcc {M : Type*} [AddCommMonoid M] (tile : ℕ → M) : ℕ → M
  | 0 => tile 0
  | n + 1 => if (n + 1) % 16 = 0 then tile (n + 1) else runAcc tile n + tile (n + 1)

/-- The accumulator at a point that is not the first: reset at a multiple of 16, else add. -/
theorem runAcc_succ {M : Type*} [AddCommMonoid M] (tile : ℕ → M) (n : ℕ) :
    runAcc tile (n + 1) = if (n + 1) % 16 = 0 then tile (n + 1) else runAcc tile n + tile (n + 1) := by
  rw [runAcc]

/-- At the first point of a stretch the accumulator holds that point's tile. -/
theorem runAcc_first {M : Type*} [AddCommMonoid M] (tile : ℕ → M) (c : ℕ) :
    runAcc tile (16 * c) = tile (16 * c) := by
  cases c with
  | zero => rw [Nat.mul_zero, runAcc]
  | succ c =>
    have e : 16 * (c + 1) = (16 * c + 15) + 1 := by omega
    rw [e, runAcc_succ, if_pos (by omega)]

/-- Within a stretch of 16 the accumulator holds the sum of the stretch's tiles so far. -/
theorem runAcc_prefix {M : Type*} [AddCommMonoid M] (tile : ℕ → M) (c : ℕ) :
    ∀ j : ℕ, j ≤ 15 → runAcc tile (16 * c + j) = ∑ i ∈ Finset.range (j + 1), tile (16 * c + i) := by
  intro j
  induction j with
  | zero =>
    intro _
    rw [Nat.add_zero, runAcc_first, Finset.sum_range_one, Nat.add_zero]
  | succ j ih =>
    intro hj
    have e : 16 * c + (j + 1) = (16 * c + j) + 1 := by omega
    rw [Finset.sum_range_succ, ← ih (by omega), e, runAcc_succ, if_neg (by omega)]

/-- At the last point of a stretch of 16 the accumulator holds the sum of the stretch's 16 tiles. -/
theorem runAcc_last {M : Type*} [AddCommMonoid M] (tile : ℕ → M) (c : ℕ) :
    runAcc tile (16 * c + 15) = ∑ j ∈ Finset.range 16, tile (16 * c + j) := by
  exact runAcc_prefix tile c 15 (le_refl 15)

/-- Two stretches of 16 points are the 32 points. -/
theorem sum_two_stretches {M : Type*} [AddCommMonoid M] (g : ℕ → M) :
    ∑ c : Fin 2, ∑ j ∈ Finset.range 16, g (16 * c.val + j) = ∑ p : Fin 32, g p.val := by
  rw [Fin.sum_univ_two, Fin.sum_univ_eq_sum_range (fun p => g p) 32]
  simp only [Fin.val_zero, Fin.val_one, Nat.mul_zero, Nat.zero_add, Nat.mul_one]
  exact (Finset.sum_range_add g 16 16).symm

/-- Row `r` of row block `p` (32 blocks of 8192 rows). -/
def rowOf (p : Fin 32) (r : Fin 8192) : Fin 262144 := ⟨8192 * p.val + r.val, by have := p.isLt; have := r.isLt; omega⟩

/-- Block and row within the block, as a one-to-one correspondence with the rows. -/
def rowEquiv : Fin 32 × Fin 8192 ≃ Fin 262144 where
  toFun x := rowOf x.1 x.2
  invFun i := (⟨i.val / 8192, by have := i.isLt; omega⟩, ⟨i.val % 8192, by omega⟩)
  left_inv := by
    rintro ⟨p, r⟩
    have hp := p.isLt
    have hr := r.isLt
    refine Prod.ext (Fin.ext ?_) (Fin.ext ?_)
    · show (8192 * p.val + r.val) / 8192 = p.val
      omega
    · show (8192 * p.val + r.val) % 8192 = r.val
      omega
  right_inv := by
    intro i
    apply Fin.ext
    show 8192 * (i.val / 8192) + i.val % 8192 = i.val
    omega

/-- A sum block by block and row by row within the block is the sum over all rows. -/
theorem sum_blocks {M : Type*} [AddCommMonoid M] (f : Fin 262144 → M) :
    ∑ p : Fin 32, ∑ r : Fin 8192, f (rowOf p r) = ∑ i : Fin 262144, f i := by
  calc ∑ p : Fin 32, ∑ r : Fin 8192, f (rowOf p r)
      = ∑ x : Fin 32 × Fin 8192, f (rowEquiv x) := (Fintype.sum_prod_type (fun x => f (rowEquiv x))).symm
    _ = ∑ i : Fin 262144, f i := Equiv.sum_comp rowEquiv f

end Cert.PixelLoss

end
-- ==== Proof.Pass1Value.lean ====
/-
  Region 0 (the first pass). Each grid point p (32 of them, in two stretches of 16) loads row block p of the inputs
  (8192 rows) and of the labels, and adds to its stretch's [1, 19, 128] output block the one-hot product
  (labels == class)ᵀ · rows; the block is reset to zero at the first point of a stretch and written back at the last.
  So output block c of the result array holds, at class k and feature d, the sum over the 16 row blocks of stretch c
  and the 8192 rows r of each of  hot (label r) k · row r d.
-/
import proofs.«416456_j77309412138_3_alg».proof.Proof.Gen.KernelIdeal.Frame
import proofs.«416456_j77309412138_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate
import Idealize.ShloMosaic.Lib.Tactic

set_option maxRecDepth 16384

noncomputable section

open scoped BigOperators

namespace Cert.KernelIdeal.Pass1

open Cert.KernelIdeal Cert.KernelIdeal.Gen
open Idealize.ShloMosaic Idealize.ShloMosaic.TcCoe Idealize.SL.Sem Idealize.ShloMosaic.ValueIdx
open Idealize.ShloMosaic.Pipeline (Dat)

/-! ## What one point leaves, as the body's payload (any float instance) -/

section AnyInstance

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the block found there plus the point's product. -/
theorem out_B (c : Dev nD) (i : grid0.Coords) (a2 : Memref sig .tc .vmem S8192x128 .f32) (h2 : a2.IsWhole)
    (a3 : Memref sig .tc .vmem S8192x1 .i32) (h3 : a3.IsWhole) (a4 : Memref sig .tc .vmem S1x19x128 .f32) (h4 : a4.IsWhole)
    (hc : ¬cond0_0 i) (x0 : Vec F S8192x128 .f32) (x1 : Vec F S8192x1 .i32) (xo : Vec F S1x19x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x128) hz2,
    View.ld_unit_zero (S := S8192x1) hz2, View.ld_unit_zero (S := S1x19x128) hz3]

/-- A point that resets: the zero block plus the point's product. -/
theorem out_A (c : Dev nD) (i : grid0.Coords) (a2 : Memref sig .tc .vmem S8192x128 .f32) (h2 : a2.IsWhole)
    (a3 : Memref sig .tc .vmem S8192x1 .i32) (h3 : a3.IsWhole) (a4 : Memref sig .tc .vmem S1x19x128 .f32) (h4 : a4.IsWhole)
    (hc : cond0_0 i) (x0 : Vec F S8192x128 .f32) (x1 : Vec F S8192x1 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x19x128) hz3, View.readCov_unit_zero (S := S1x19x128) _ hz3]
  simp only [View.readAt_eq_ld, h2.read_unread, h3.read_unread, View.ld_unit_zero (S := S8192x128) hz2,
    View.ld_unit_zero (S := S8192x1) hz2, View.ld_unit_zero (S := S1x19x128) hz3]

end AnyInstance

/-! ## The payload read at an index, over the extended reals -/

/-- One row block's product at class `k`, feature `d`: the sum over its rows of the one-hot weight times the row. -/
def tileAt (x : FVec Ideal S8192x128 .f32) (t : IVec S8192x1 32) (k : Fin 19) (d : Fin 128) : EReal :=
  ∑ r : Fin 8192, Cert.PixelLoss.hot (t (ix2 r (0 : Fin 1))) k * x (ix2 r d)

/-- The word 0/1 of a comparison, widened and converted, is the one-hot weight. -/
theorem bit_to_real (w v : BitVec 32) :
    (FloatOps.sitofp (F := Ideal) .f32 ((IntOp.cmpi .eq w v).setWidth 32) : EReal) = if w = v then 1 else 0 := by
  by_cases h : w = v
  · subst h
    rw [if_pos rfl]
    have : IntOp.cmpi .eq w w = 1#1 := StableHlo.Predicate.cmpi_eq_iff.mpr rfl
    rw [this]
    show (((BitVec.setWidth 32 1#1).toInt : ℝ) : EReal) = 1
    have : (BitVec.setWidth 32 1#1).toInt = 1 := by decide
    rw [this]; norm_num
  · rw [if_neg h]
    have : IntOp.cmpi .eq w v = 0#1 := eq_zero_of_ne_one (fun e => h (StableHlo.Predicate.cmpi_eq_iff.mp e))
    rw [this]
    show (((BitVec.setWidth 32 0#1).toInt : ℝ) : EReal) = 0
    have : (BitVec.setWidth 32 0#1).toInt = 0 := by decide
    rw [this]; norm_num

/-- The body's one-hot matrix at row `r`, class `k`. -/
theorem onehot_apply (t : IVec S8192x1 32) (r : Fin 8192) (k : Fin 19) :
    (sitofp .f32 (extui 32 (cmpi .eq (broadcastTo S8192x19 (shapeCast S8192x1 t shapeCasts_S8192x1_S8192x1) broadcasts_S8192x1_S8192x19)
      (broadcastTo S8192x19 (iota .tc S1x19 32 [1] iota_S1x19_d1_w32) broadcasts_S1x19_S8192x19)) natLt_1_32) : FVec Ideal S8192x19 .f32) (ix2 r k)
      = Cert.PixelLoss.hot (t (ix2 r (0 : Fin 1))) k := by
  rw [sitofp_apply, extui_apply]
  show FloatOps.sitofp (F := Ideal) .f32 ((IntOp.cmpi .eq (broadcastTo S8192x19 (shapeCast S8192x1 t shapeCasts_S8192x1_S8192x1) broadcasts_S8192x1_S8192x19 (ix2 r k))
      (broadcastTo S8192x19 (iota .tc S1x19 32 [1] iota_S1x19_d1_w32) broadcasts_S1x19_S8192x19 (ix2 r k))).setWidth 32) = _
  rw [broadcastTo_1b_ab_apply, iota_single_apply, shapeCast_self]
  rw [broadcastTo_apply t broadcasts_S8192x1_S8192x19 (ix2 r k) (ix2 r (0 : Fin 1)) (fun ax => by
    match ax with
    | ⟨0, _⟩ => show r.val = if (8192 : Nat) = 1 then 0 else r.val; rw [if_neg (by decide)]
    | ⟨1, _⟩ => show 0 = if (1 : Nat) = 1 then 0 else k.val; rw [if_pos rfl])]
  rw [bit_to_real]
  rfl

/-! ### The product's operand indices (one contracted axis: the rows) -/

theorem lhs_dot_0 (i : S19x128.Idx) (q : dot_S8192x19_S8192x128_S19x128_0_0_1_1_n_n.contr.Idx) :
    (dot_S8192x19_S8192x128_S19x128_0_0_1_1_n_n.lhsIdx i q 0).val = (q ⟨0, by decide⟩).val :=
  dot_S8192x19_S8192x128_S19x128_0_0_1_1_n_n.lhsIdx_val_of_single rfl i q
theorem lhs_dot_1 (i : S19x128.Idx) (q : dot_S8192x19_S8192x128_S19x128_0_0_1_1_n_n.contr.Idx) :
    (dot_S8192x19_S8192x128_S19x128_0_0_1_1_n_n.lhsIdx i q 1).val = (i 0).val := by
  unfold DotDims.lhsIdx
  rw [dif_neg (show ¬(1 : Fin S8192x19.rank) ∈ dot_S8192x19_S8192x128_S19x128_0_0_1_1_n_n.lhsBatch by decide),
    dif_pos (show (1 : Fin S8192x19.rank) ∈ dot_S8192x19_S8192x128_S19x128_0_0_1_1_n_n.lhsNonContracting by decide)]
  rfl
theorem rhs_dot_0 (i : S19x128.Idx) (q : dot_S8192x19_S8192x128_S19x128_0_0_1_1_n_n.contr.Idx) :
    (dot_S8192x19_S8192x128_S19x128_0_0_1_1_n_n.rhsIdx i q 0).val = (q ⟨0, by decide⟩).val :=
  dot_S8192x19_S8192x128_S19x128_0_0_1_1_n_n.rhsIdx_val_of_single rfl i q
theorem rhs_dot_1 (i : S19x128.Idx) (q : dot_S8192x19_S8192x128_S19x128_0_0_1_1_n_n.contr.Idx) :
    (dot_S8192x19_S8192x128_S19x128_0_0_1_1_n_n.rhsIdx i q 1).val = (i 1).val := by
  unfold DotDims.rhsIdx
  rw [dif_neg (show ¬(1 : Fin S8192x128.rank) ∈ dot_S8192x19_S8192x128_S19x128_0_0_1_1_n_n.rhsBatch by decide),
    dif_pos (show (1 : Fin S8192x128.rank) ∈ dot_S8192x19_S8192x128_S19x128_0_0_1_1_n_n.rhsNonContracting by decide)]
  rfl

/-- The payload at class `k`, feature `d`: the block found there plus the row block's product. -/
theorem pay2_apply (x : FVec Ideal S8192x128 .f32) (t : IVec S8192x1 32) (acc : FVec Ideal S1x19x128 .f32)
    (u : Fin 1) (k : Fin 19) (d : Fin 128) :
    k0_pay2 (F := Ideal) x t acc (ix3 u k d) = acc (ix3 u k d) + tileAt x t k d := by
  unfold k0_pay2
  rw [addf_apply, shapeCast_self, shapeCast_ab_1ab_apply]
  refine congrArg (acc (ix3 u k d) + ·) ?_
  simp only [matmul]
  rw [Ideal.matmul_constant_zero_apply,
    ← Equiv.sum_comp (contrEquiv1 dot_S8192x19_S8192x128_S19x128_0_0_1_1_n_n 8192 rfl rfl).symm]
  unfold tileAt
  refine Finset.sum_congr rfl fun r _ => ?_
  have hk := contrEquiv1_symm_val dot_S8192x19_S8192x128_S19x128_0_0_1_1_n_n 8192 rfl rfl r
  have el : dot_S8192x19_S8192x128_S19x128_0_0_1_1_n_n.lhsIdx (ix2 k d)
      ((contrEquiv1 dot_S8192x19_S8192x128_S19x128_0_0_1_1_n_n 8192 rfl rfl).symm r) = ix2 r k := funext fun a => Fin.ext (by
    match a with
    | ⟨0, _⟩ => exact (lhs_dot_0 _ _).trans hk
    | ⟨1, _⟩ => exact lhs_dot_1 _ _)
  have er : dot_S8192x19_S8192x128_S19x128_0_0_1_1_n_n.rhsIdx (ix2 k d)
      ((contrEquiv1 dot_S8192x19_S8192x128_S19x128_0_0_1_1_n_n 8192 rfl rfl).symm r) = ix2 r d := funext fun a => Fin.ext (by
    match a with
    | ⟨0, _⟩ => exact (rhs_dot_0 _ _).trans hk
    | ⟨1, _⟩ => exact rhs_dot_1 _ _)
  rw [el, er, onehot_apply]

/-- The reset value is the zero block. -/
theorem pay1_eq : k0_pay1 (F := Ideal) = 0 := funext fun j => Ideal.ofBits_zero_f32

/-! ## The accumulation over the points -/

section Run

variable (V : (c : Dev nD) → (b : Ref sig .tc) → Buf (Elt Ideal) ((c : Thread nD τ).loc b))

/-- Point `t`'s block of rows and of labels, at their literal types. -/
abbrev xblk (c : Dev nD) (t : Fin cfg0.N) : FVec Ideal S8192x128 .f32 := iblk0 V c 0 t
abbrev tblk (c : Dev nD) (t : Fin cfg0.N) : IVec S8192x1 32 := iblk0 V c 1 t

/-- What point `p` adds, at class `k` and feature `d` (nothing past the grid). -/
def tileP (c : Dev nD) (p : ℕ) (k : Fin 19) (d : Fin 128) : EReal :=
  if h : p < cfg0.N then tileAt (xblk V c ⟨p, h⟩) (tblk V c ⟨p, h⟩) k d else 0

/-- The same as a [1, 19, 128] block. -/
def tile (c : Dev nD) (p : ℕ) : FVec Ideal S1x19x128 .f32 := fun j => tileP V c p (j 1) (j 2)

theorem pay2_eq (c : Dev nD) (t : Fin cfg0.N) (acc : FVec Ideal S1x19x128 .f32) :
    k0_pay2 (F := Ideal) (xblk V c t) (tblk V c t) acc = acc + tile V c t.val := by
  funext j
  obtain ⟨u, k, d, rfl⟩ : ∃ (u : Fin 1) (k : Fin 19) (d : Fin 128), j = ix3 u k d := ⟨j 0, j 1, j 2, eq_ix3 j⟩
  rw [pay2_apply]
  show _ = acc (ix3 u k d) + tileP V c t.val k d
  unfold tileP
  rw [dif_pos t.isLt]

/-- After point `n` the output block holds the running sum of its stretch's products. -/
theorem outsAt_eq (c : Dev nD) : ∀ (n : ℕ) (h : n < cfg0.N), outsAt0 V c n h = Cert.PixelLoss.runAcc (tile V c) n
  | 0, h => by
    rw [outsAt0_A V c ⟨0, h⟩ rfl, out_A]
    show k0_pay2 (F := Ideal) (xblk V c ⟨0, h⟩) (tblk V c ⟨0, h⟩) (k0_pay1 (F := Ideal)) = _
    rw [pay2_eq, pay1_eq, zero_add]
    rfl
  | n + 1, h => by
    rw [Cert.PixelLoss.runAcc_succ]
    by_cases h0 : (n + 1) % 16 = 0
    · rw [if_pos h0, outsAt0_A V c ⟨n + 1, h⟩ h0, out_A]
      show k0_pay2 (F := Ideal) (xblk V c ⟨n + 1, h⟩) (tblk V c ⟨n + 1, h⟩) (k0_pay1 (F := Ideal)) = _
      rw [pay2_eq, pay1_eq, zero_add]
    · rw [if_neg h0, outsAt0_B V c ⟨n + 1, h⟩ h0, out_B]
      show k0_pay2 (F := Ideal) (xblk V c ⟨n + 1, h⟩) (tblk V c ⟨n + 1, h⟩) (outsAt0 V c n _) = _
      rw [pay2_eq, outsAt_eq c n]

/-! ## From the blocks to the array -/

/-- The printed index maps over the grid: the input blocks move with the point, the output block with the stretch. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

/-- What region 0 leaves in its result array: at stretch `s`, class `k`, feature `d` the sum of the stretch's 16 products. -/
def part (c : Dev nD) : FVec Ideal S2x19x128 .f32 :=
  fun j => ∑ s ∈ Finset.range 16, tileP V c (16 * (j 0).val + s) (j 1) (j 2)

theorem flushed_eq (c : Dev nD) (t : Fin cfg0.N) (hf : (cfg0.win 2).flush t = true) :
    (dat0 V c).flushed 2 t = ((cfg0.win 2).blk t).view.read (Elt Ideal) (part V c) := by
  have h15 : t.val % 16 = 15 := (flush0_2 t).mp hf
  obtain ⟨-, -, -, -, e0, e1, e2⟩ := idx_facts t
  show (cfg0.win 2).cut (grid0.coords t) ((dat0 V c).after 2 t) = _
  rw [after0_2, outsAt_eq]
  have ht : t.val = 16 * (t.val / 16) + 15 := by omega
  rw [ht, Cert.PixelLoss.runAcc_last]
  funext j
  show (∑ s ∈ Finset.range 16, tile V c (16 * (t.val / 16) + s)) j = part V c (((cfg0.win 2).blk t).view.emb j)
  rw [Finset.sum_apply]
  unfold part tile
  have hj0 : (j 0).val = 0 := by have hlt : (j 0).val < 1 := (j 0).isLt; omega
  have a0 : ((((cfg0.win 2).blk t).view.emb j) 0).val = t.val / 16 := by
    show win0_2.index t (0 : Fin 3) * 1 + 1 * (j 0).val = _
    rw [e0, hj0]; omega
  have a1 : (((cfg0.win 2).blk t).view.emb j) 1 = j 1 := Fin.ext (by
    show win0_2.index t (1 : Fin 3) * 19 + 1 * (j 1).val = (j 1).val
    rw [e1]; omega)
  have a2 : (((cfg0.win 2).blk t).view.emb j) 2 = j 2 := Fin.ext (by
    show win0_2.index t (2 : Fin 3) * 128 + 1 * (j 2).val = (j 2).val
    rw [e2]; omega)
  rw [a0, a1, a2]

/-- Every index of the result array lies in the block the last point of its stretch writes back. -/
theorem cover (i : S2x19x128.Idx) :
    ∃ t : Fin cfg0.N, (cfg0.win 2).flush t = true ∧ i ∈ ((cfg0.win 2).blk t).view.set := by
  have hN : cfg0.N = 32 := N_0
  have hi0 : (i 0).val < 2 := (i 0).isLt
  have hi1 : (i 1).val < 19 := (i 1).isLt
  have hi2 : (i 2).val < 128 := (i 2).isLt
  have hlt : 16 * (i 0).val + 15 < cfg0.N := by omega
  refine ⟨⟨16 * (i 0).val + 15, hlt⟩, (flush0_2 _).mpr (by show (16 * (i 0).val + 15) % 16 = 15; omega), ?_⟩
  obtain ⟨-, -, -, -, e0, e1, e2⟩ := idx_facts ⟨16 * (i 0).val + 15, hlt⟩
  have e0' : win0_2.index ⟨16 * (i 0).val + 15, hlt⟩ (0 : Fin 3) = (i 0).val := by rw [e0]; show (16 * (i 0).val + 15) / 16 = _; omega
  show i ∈ ((View.whole main_v1).slice (win0_2.rect ⟨16 * (i 0).val + 15, hlt⟩)).set
  rw [View.set_slice_whole, Rect.mem_set_unit]
  intro a
  match a with
  | ⟨0, _⟩ =>
    show win0_2.index ⟨16 * (i 0).val + 15, hlt⟩ (0 : Fin 3) * 1 ≤ (i 0).val ∧ (i 0).val < win0_2.index ⟨16 * (i 0).val + 15, hlt⟩ (0 : Fin 3) * 1 + 1
    rw [e0']; omega
  | ⟨1, _⟩ =>
    show win0_2.index ⟨16 * (i 0).val + 15, hlt⟩ (1 : Fin 3) * 19 ≤ (i 1).val ∧ (i 1).val < win0_2.index ⟨16 * (i 0).val + 15, hlt⟩ (1 : Fin 3) * 19 + 19
    rw [e1]; omega
  | ⟨2, _⟩ =>
    show win0_2.index ⟨16 * (i 0).val + 15, hlt⟩ (2 : Fin 3) * 128 ≤ (i 2).val ∧ (i 2).val < win0_2.index ⟨16 * (i 0).val + 15, hlt⟩ (2 : Fin 3) * 128 + 128
    rw [e2]; omega

/-- Region 0's result array after the run. -/
theorem final (c : Dev nD) : (dat0 V c).arrAt 2 cfg0.N = part V c :=
  (dat0 V c).arrAt_eq_of_cover 2 (part V c) (flushed_eq V c) cover

/-! ## The blocks read off the arrays as the region finds them -/

theorem xblk_apply (c : Dev nD) (t : Fin cfg0.N) (r : Fin 8192) (d : Fin 128) (hr : 8192 * t.val + r.val < 262144) :
    xblk V c t (ix2 r d) = V c main_arg0 (ix2 (⟨8192 * t.val + r.val, hr⟩ : Fin 262144) d) := by
  obtain ⟨e0, e1, -, -, -, -, -⟩ := idx_facts t
  unfold xblk iblk0
  rw [View.read_apply]
  show V c main_arg0 _ = V c main_arg0 _
  congr 1
  funext a
  apply Fin.ext
  match a with
  | ⟨0, _⟩ => show win0_0.index t (0 : Fin 2) * 8192 + 1 * r.val = 8192 * t.val + r.val; rw [e0]; omega
  | ⟨1, _⟩ => show win0_0.index t (1 : Fin 2) * 128 + 1 * d.val = d.val; rw [e1]; omega

theorem tblk_apply (c : Dev nD) (t : Fin cfg0.N) (r : Fin 8192) (hr : 8192 * t.val + r.val < 262144) :
    tblk V c t (ix2 r (0 : Fin 1)) = V c main_v0 (ix2 (⟨8192 * t.val + r.val, hr⟩ : Fin 262144) (0 : Fin 1)) := by
  obtain ⟨-, -, e0, e1, -, -, -⟩ := idx_facts t
  unfold tblk iblk0
  rw [View.read_apply]
  show V c main_v0 _ = V c main_v0 _
  congr 1
  funext a
  apply Fin.ext
  match a with
  | ⟨0, _⟩ => show win0_1.index t (0 : Fin 2) * 8192 + 1 * r.val = 8192 * t.val + r.val; rw [e0]; omega
  | ⟨1, _⟩ => show win0_1.index t (1 : Fin 2) * 1 + 1 * 0 = 0; rw [e1]

end Run

end Cert.KernelIdeal.Pass1

end
-- ==== Proof.Pass2Value.lean ====
/-
  Region 1 (the second pass). Each grid point p loads row block p of the inputs and of the labels and the whole
  [19, 128] table of class means, picks each row's class mean by the one-hot product (labels == class) · means,
  and adds to its stretch's [1, 1, 1] output block the sum over the block's rows of √ ∑_d (row − mean)²; the block is
  reset to zero at the first point of a stretch of 16 and written back at the last.
-/
import proofs.«416456_j77309412138_3_alg».proof.Proof.Pass1Value

set_option maxRecDepth 16384

noncomputable section

open scoped BigOperators

namespace Cert.KernelIdeal.Pass2

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Pass1 (hz2 hz3 onehot_apply)

/-! ## What one point leaves, as the body's payload (any float instance) -/

section AnyInstance

variable {F : FTy → Type} [FloatOps F]

/-- A point that does not reset: the block found there plus the point's sum of distances. -/
theorem out_B (c : Dev nD) (i : grid1.Coords) (a2 : Memref sig .tc .vmem S8192x128 .f32) (h2 : a2.IsWhole)
    (a3 : Memref sig .tc .vmem S8192x1 .i32) (h3 : a3.IsWhole) (a4 : Memref sig .tc .vmem S19x128 .f32) (h4 : a4.IsWhole)
    (a5 : Memref sig .tc .vmem S1x1x1 .f32) (h5 : a5.IsWhole)
    (hc : ¬cond1_0 i) (x0 : Vec F S8192x128 .f32) (x1 : Vec F S8192x1 .i32) (x2 : Vec F S19x128 .f32) (xo : Vec F S1x1x1 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S8192x128) hz2, View.ld_unit_zero (S := S8192x1) hz2, View.ld_unit_zero (S := S19x128) hz2,
    View.ld_unit_zero (S := S1x1x1) hz3]

/-- A point that resets: the zero block plus the point's sum of distances. -/
theorem out_A (c : Dev nD) (i : grid1.Coords) (a2 : Memref sig .tc .vmem S8192x128 .f32) (h2 : a2.IsWhole)
    (a3 : Memref sig .tc .vmem S8192x1 .i32) (h3 : a3.IsWhole) (a4 : Memref sig .tc .vmem S19x128 .f32) (h4 : a4.IsWhole)
    (a5 : Memref sig .tc .vmem S1x1x1 .f32) (h5 : a5.IsWhole)
    (hc : cond1_0 i) (x0 : Vec F S8192x128 .f32) (x1 : Vec F S8192x1 .i32) (x2 : Vec F S19x128 .f32) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S8192x128) hz2, View.ld_unit_zero (S := S8192x1) hz2, View.ld_unit_zero (S := S19x128) hz2,
    View.ld_unit_zero (S := S1x1x1) hz3]

end AnyInstance

/-! ## The payload read at an index, over the extended reals -/

/-- Row `r`'s class mean at feature `d`, picked by the one-hot product over the classes. -/
def pickAt (t : IVec S8192x1 32) (cc : FVec Ideal S19x128 .f32) (r : Fin 8192) (d : Fin 128) : EReal :=
  ∑ k : Fin 19, Cert.PixelLoss.hot (t (ix2 r (0 : Fin 1))) k * cc (ix2 k d)

/-- Row `r`'s distance to its class mean. -/
def distAt (x : FVec Ideal S8192x128 .f32) (t : IVec S8192x1 32) (cc : FVec Ideal S19x128 .f32) (r : Fin 8192) : EReal :=
  Ideal.sqrt (∑ d : Fin 128, (x (ix2 r d) - pickAt t cc r d) * (x (ix2 r d) - pickAt t cc r d))

/-! ### The product's operand indices (one contracted axis: the classes) -/

theorem lhs_dot_0 (i : S8192x128.Idx) (q : dot_S8192x19_S19x128_S8192x128_1_0_0_1_n_n.contr.Idx) : (dot_S8192x19_S19x128_S8192x128_1_0_0_1_n_n.lhsIdx i q 0).val = (i 0).val := by
  unfold DotDims.lhsIdx
  rw [dif_neg (show ¬(0 : Fin S8192x19.rank) ∈ dot_S8192x19_S19x128_S8192x128_1_0_0_1_n_n.lhsBatch by decide),
    dif_pos (show (0 : Fin S8192x19.rank) ∈ dot_S8192x19_S19x128_S8192x128_1_0_0_1_n_n.lhsNonContracting by decide)]
  rfl
theorem lhs_dot_1 (i : S8192x128.Idx) (q : dot_S8192x19_S19x128_S8192x128_1_0_0_1_n_n.contr.Idx) : (dot_S8192x19_S19x128_S8192x128_1_0_0_1_n_n.lhsIdx i q 1).val = (q ⟨0, by decide⟩).val :=
  dot_S8192x19_S19x128_S8192x128_1_0_0_1_n_n.lhsIdx_val_of_single rfl i q
theorem rhs_dot_0 (i : S8192x128.Idx) (q : dot_S8192x19_S19x128_S8192x128_1_0_0_1_n_n.contr.Idx) : (dot_S8192x19_S19x128_S8192x128_1_0_0_1_n_n.rhsIdx i q 0).val = (q ⟨0, by decide⟩).val :=
  dot_S8192x19_S19x128_S8192x128_1_0_0_1_n_n.rhsIdx_val_of_single rfl i q
theorem rhs_dot_1 (i : S8192x128.Idx) (q : dot_S8192x19_S19x128_S8192x128_1_0_0_1_n_n.contr.Idx) : (dot_S8192x19_S19x128_S8192x128_1_0_0_1_n_n.rhsIdx i q 1).val = (i 1).val := by
  unfold DotDims.rhsIdx
  rw [dif_neg (show ¬(1 : Fin S19x128.rank) ∈ dot_S8192x19_S19x128_S8192x128_1_0_0_1_n_n.rhsBatch by decide),
    dif_pos (show (1 : Fin S19x128.rank) ∈ dot_S8192x19_S19x128_S8192x128_1_0_0_1_n_n.rhsNonContracting by decide)]
  rfl

/-- The one-hot product with the table of means, at row `r`, feature `d`. -/
theorem picked_apply (t : IVec S8192x1 32) (cc : FVec Ideal S19x128 .f32) (r : Fin 8192) (d : Fin 128) :
    (matmul dot_S8192x19_S19x128_S8192x128_1_0_0_1_n_n (some .fp32)
      (sitofp .f32 (extui 32 (cmpi .eq (broadcastTo S8192x19 (shapeCast S8192x1 t shapeCasts_S8192x1_S8192x1) broadcasts_S8192x1_S8192x19)
        (broadcastTo S8192x19 (iota .tc S1x19 32 [1] iota_S1x19_d1_w32) broadcasts_S1x19_S8192x19)) natLt_1_32) : FVec Ideal S8192x19 .f32)
      (shapeCast S19x128 cc shapeCasts_S19x128_S19x128) (constant S8192x128 .f32 0x00000000#32) : FVec Ideal S8192x128 .f32) (ix2 r d)
      = pickAt t cc r d := by
  simp only [matmul]
  rw [Ideal.matmul_constant_zero_apply, ← Equiv.sum_comp (contrEquiv1 dot_S8192x19_S19x128_S8192x128_1_0_0_1_n_n 19 rfl rfl).symm]
  unfold pickAt
  refine Finset.sum_congr rfl fun k _ => ?_
  have hk := contrEquiv1_symm_val dot_S8192x19_S19x128_S8192x128_1_0_0_1_n_n 19 rfl rfl k
  have el : dot_S8192x19_S19x128_S8192x128_1_0_0_1_n_n.lhsIdx (ix2 r d) ((contrEquiv1 dot_S8192x19_S19x128_S8192x128_1_0_0_1_n_n 19 rfl rfl).symm k) = ix2 r k := funext fun a => Fin.ext (by
    match a with
    | ⟨0, _⟩ => exact lhs_dot_0 _ _
    | ⟨1, _⟩ => exact (lhs_dot_1 _ _).trans hk)
  have er : dot_S8192x19_S19x128_S8192x128_1_0_0_1_n_n.rhsIdx (ix2 r d) ((contrEquiv1 dot_S8192x19_S19x128_S8192x128_1_0_0_1_n_n 19 rfl rfl).symm k) = ix2 k d := funext fun a => Fin.ext (by
    match a with
    | ⟨0, _⟩ => exact (rhs_dot_0 _ _).trans hk
    | ⟨1, _⟩ => exact rhs_dot_1 _ _)
  rw [el, er, onehot_apply, shapeCast_self]

/-- A column [a] viewed [a, 1] reads (r, 0) at r. -/
theorem shapeCast_col_apply (x : FVec Ideal S8192 .f32) (r : Fin 8192) (w : Fin 1) :
    shapeCast S8192x1 x shapeCasts_S8192_S8192x1 (ix2 r w) = x (ix1 r) :=
  shapeCast_apply x shapeCasts_S8192_S8192x1 _ _ (by
    have hw : w.val = 0 := by omega
    rw [Shape.rowMajor_val_two, Shape.rowMajor_val_one]
    show r.val = r.val * 1 + w.val
    rw [hw]; omega)

/-- The lane sum of a [8192, 128] block at row `r`. -/
theorem rowsum_apply (src : FVec Ideal S8192x128 .f32) (r : Fin 8192) :
    multiReduction .add [1] S8192 src 0x00000000#32 reduces_S8192x128_S8192 (.inl rfl) rfl (ix1 r) = ∑ d : Fin 128, src (ix2 r d) :=
  (Ideal.multiReduction_add_single src 0x00000000#32 reduces_S8192x128_S8192 (.inl rfl) rfl (ix1 r)).trans
    (Finset.sum_congr rfl fun d _ => congrArg src (funext fun a => Fin.ext (by
      match a with
      | ⟨0, _⟩ => rfl
      | ⟨1, _⟩ => rfl)))

/-- The sum down the rows of a [8192, 1] column. -/
theorem colsum_apply (src : FVec Ideal S8192x1 .f32) (w : Fin 1) :
    multiReduction .add [0] S1 src 0x00000000#32 reduces_S8192x1_S1 (.inl rfl) rfl (ix1 w) = ∑ r : Fin 8192, src (ix2 r w) :=
  (Ideal.multiReduction_add_single src 0x00000000#32 reduces_S8192x1_S1 (.inl rfl) rfl (ix1 w)).trans
    (Finset.sum_congr rfl fun r _ => congrArg src (funext fun a => Fin.ext (by
      match a with
      | ⟨0, _⟩ => rfl
      | ⟨1, _⟩ => rfl)))

/-- The payload at its one index: the block found there plus the sum over the block's rows of the distances. -/
theorem pay2_apply (x : FVec Ideal S8192x128 .f32) (t : IVec S8192x1 32) (cc : FVec Ideal S19x128 .f32)
    (acc : FVec Ideal S1x1x1 .f32) (u v w : Fin 1) :
    k1_pay2 (F := Ideal) x t cc acc (ix3 u v w) = acc (ix3 u v w) + ∑ r : Fin 8192, distAt x t cc r := by
  unfold k1_pay2
  rw [addf_apply, shapeCast_self, shapeCast_ab_1ab_apply, shapeCast_a_1a_apply]
  refine congrArg (acc (ix3 u v w) + ·) ?_
  refine (colsum_apply _ w).trans ?_
  refine Finset.sum_congr rfl fun r _ => ?_
  show Ideal.sqrt (shapeCast S8192x1 _ shapeCasts_S8192_S8192x1 (ix2 r w)) = _
  rw [shapeCast_col_apply]
  unfold distAt
  refine congrArg Ideal.sqrt ?_
  refine (rowsum_apply _ r).trans ?_
  refine Finset.sum_congr rfl fun d _ => ?_
  rw [mulf_apply, subf_apply, picked_apply]

/-- The reset value is the zero block. -/
theorem pay1_eq : k1_pay1 (F := Ideal) = 0 := funext fun j => Ideal.ofBits_zero_f32

/-! ## The accumulation over the points -/

section Run

variable (V : (c : Dev nD) → (b : Ref sig .tc) → Buf (Elt Ideal) ((c : Thread nD τ).loc b))

/-- Point `t`'s block of rows, of labels, and the table of means, at their literal types. -/
abbrev xblk (c : Dev nD) (t : Fin cfg1.N) : FVec Ideal S8192x128 .f32 := iblk1 V c 0 t
abbrev tblk (c : Dev nD) (t : Fin cfg1.N) : IVec S8192x1 32 := iblk1 V c 1 t
abbrev cblk (c : Dev nD) (t : Fin cfg1.N) : FVec Ideal S19x128 .f32 := iblk1 V c 2 t

/-- What point `p` adds (nothing past the grid). -/
def tileP (c : Dev nD) (p : ℕ) : EReal :=
  if h : p < cfg1.N then ∑ r : Fin 8192, distAt (xblk V c ⟨p, h⟩) (tblk V c ⟨p, h⟩) (cblk V c ⟨p, h⟩) r else 0

/-- The same as a [1, 1, 1] block. -/
def tile (c : Dev nD) (p : ℕ) : FVec Ideal S1x1x1 .f32 := fun _ => tileP V c p

theorem pay2_eq (c : Dev nD) (t : Fin cfg1.N) (acc : FVec Ideal S1x1x1 .f32) :
    k1_pay2 (F := Ideal) (xblk V c t) (tblk V c t) (cblk V c t) acc = acc + tile V c t.val := by
  funext j
  obtain ⟨u, v, w, rfl⟩ : ∃ (u : Fin 1) (v : Fin 1) (w : Fin 1), j = ix3 u v w := ⟨j 0, j 1, j 2, eq_ix3 j⟩
  rw [pay2_apply]
  show _ = acc (ix3 u v w) + tileP V c t.val
  unfold tileP
  rw [dif_pos t.isLt]

/-- After point `n` the output block holds the running sum of its stretch's sums of distances. -/
theorem outsAt_eq (c : Dev nD) : ∀ (n : ℕ) (h : n < cfg1.N), outsAt1 V c n h = Cert.PixelLoss.runAcc (tile V c) n
  | 0, h => by
    rw [outsAt1_A V c ⟨0, h⟩ rfl, out_A]
    show k1_pay2 (F := Ideal) (xblk V c ⟨0, h⟩) (tblk V c ⟨0, h⟩) (cblk V c ⟨0, h⟩) (k1_pay1 (F := Ideal)) = _
    rw [pay2_eq, pay1_eq, zero_add]
    rfl
  | n + 1, h => by
    rw [Cert.PixelLoss.runAcc_succ]
    by_cases h0 : (n + 1) % 16 = 0
    · rw [if_pos h0, outsAt1_A V c ⟨n + 1, h⟩ h0, out_A]
      show k1_pay2 (F := Ideal) (xblk V c ⟨n + 1, h⟩) (tblk V c ⟨n + 1, h⟩) (cblk V c ⟨n + 1, h⟩) (k1_pay1 (F := Ideal)) = _
      rw [pay2_eq, pay1_eq, zero_add]
    · rw [if_neg h0, outsAt1_B V c ⟨n + 1, h⟩ h0, out_B]
      show k1_pay2 (F := Ideal) (xblk V c ⟨n + 1, h⟩) (tblk V c ⟨n + 1, h⟩) (cblk V c ⟨n + 1, h⟩) (outsAt1 V c n _) = _
      rw [pay2_eq, outsAt_eq c n]

/-! ## From the blocks to the array -/

/-- The printed index maps over the grid: the row blocks move with the point, the table stays, the output block moves
    with the stretch. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 16 ∧ win1_3.index t (1 : Fin 3) = 0 ∧ win1_3.index t (2 : Fin 3) = 0 :=
  (by decide +kernel : ∀ t : Fin grid1.N, _)

/-- What region 1 leaves in its result array: at stretch `s` the sum of the stretch's 16 sums of distances. -/
def part (c : Dev nD) : FVec Ideal S2x1x1 .f32 :=
  fun j => ∑ s ∈ Finset.range 16, tileP V c (16 * (j 0).val + s)

theorem flushed_eq (c : Dev nD) (t : Fin cfg1.N) (hf : (cfg1.win 3).flush t = true) :
    (dat1 V c).flushed 3 t = ((cfg1.win 3).blk t).view.read (Elt Ideal) (part V c) := by
  have h15 : t.val % 16 = 15 := (flush1_3 t).mp hf
  obtain ⟨-, -, -, -, -, -, e0, e1, e2⟩ := idx_facts t
  show (cfg1.win 3).cut (grid1.coords t) ((dat1 V c).after 3 t) = _
  rw [after1_3, outsAt_eq]
  have ht : t.val = 16 * (t.val / 16) + 15 := by omega
  rw [ht, Cert.PixelLoss.runAcc_last]
  funext j
  show (∑ s ∈ Finset.range 16, tile V c (16 * (t.val / 16) + s)) j = part V c (((cfg1.win 3).blk t).view.emb j)
  rw [Finset.sum_apply]
  unfold part tile
  have hj0 : (j 0).val = 0 := by have hlt : (j 0).val < 1 := (j 0).isLt; omega
  have a0 : ((((cfg1.win 3).blk t).view.emb j) 0).val = t.val / 16 := by
    show win1_3.index t (0 : Fin 3) * 1 + 1 * (j 0).val = _
    rw [e0, hj0]; omega
  rw [a0]

/-- Every index of the result array lies in the block the last point of its stretch writes back. -/
theorem cover (i : S2x1x1.Idx) :
    ∃ t : Fin cfg1.N, (cfg1.win 3).flush t = true ∧ i ∈ ((cfg1.win 3).blk t).view.set := by
  have hN : cfg1.N = 32 := N_1
  have hi0 : (i 0).val < 2 := (i 0).isLt
  have hi1 : (i 1).val < 1 := (i 1).isLt
  have hi2 : (i 2).val < 1 := (i 2).isLt
  have hlt : 16 * (i 0).val + 15 < cfg1.N := by omega
  refine ⟨⟨16 * (i 0).val + 15, hlt⟩, (flush1_3 _).mpr (by show (16 * (i 0).val + 15) % 16 = 15; omega), ?_⟩
  obtain ⟨-, -, -, -, -, -, e0, e1, e2⟩ := idx_facts ⟨16 * (i 0).val + 15, hlt⟩
  have e0' : win1_3.index ⟨16 * (i 0).val + 15, hlt⟩ (0 : Fin 3) = (i 0).val := by rw [e0]; show (16 * (i 0).val + 15) / 16 = _; omega
  show i ∈ ((View.whole main_v16).slice (win1_3.rect ⟨16 * (i 0).val + 15, hlt⟩)).set
  rw [View.set_slice_whole, Rect.mem_set_unit]
  intro a
  match a with
  | ⟨0, _⟩ =>
    show win1_3.index ⟨16 * (i 0).val + 15, hlt⟩ (0 : Fin 3) * 1 ≤ (i 0).val ∧ (i 0).val < win1_3.index ⟨16 * (i 0).val + 15, hlt⟩ (0 : Fin 3) * 1 + 1
    rw [e0']; omega
  | ⟨1, _⟩ =>
    show win1_3.index ⟨16 * (i 0).val + 15, hlt⟩ (1 : Fin 3) * 1 ≤ (i 1).val ∧ (i 1).val < win1_3.index ⟨16 * (i 0).val + 15, hlt⟩ (1 : Fin 3) * 1 + 1
    rw [e1]; omega
  | ⟨2, _⟩ =>
    show win1_3.index ⟨16 * (i 0).val + 15, hlt⟩ (2 : Fin 3) * 1 ≤ (i 2).val ∧ (i 2).val < win1_3.index ⟨16 * (i 0).val + 15, hlt⟩ (2 : Fin 3) * 1 + 1
    rw [e2]; omega

/-- Region 1's result array after the run. -/
theorem final (c : Dev nD) : (dat1 V c).arrAt 3 cfg1.N = part V c :=
  (dat1 V c).arrAt_eq_of_cover 3 (part V c) (flushed_eq V c) cover

/-! ## The blocks read off the arrays as the region finds them -/

theorem xblk_apply (c : Dev nD) (t : Fin cfg1.N) (r : Fin 8192) (d : Fin 128) (hr : 8192 * t.val + r.val < 262144) :
    xblk V c t (ix2 r d) = V c main_arg0 (ix2 (⟨8192 * t.val + r.val, hr⟩ : Fin 262144) d) := by
  obtain ⟨e0, e1, -, -, -, -, -, -, -⟩ := idx_facts t
  unfold xblk iblk1
  rw [View.read_apply]
  show V c main_arg0 _ = V c main_arg0 _
  congr 1
  funext a
  apply Fin.ext
  match a with
  | ⟨0, _⟩ => show win1_0.index t (0 : Fin 2) * 8192 + 1 * r.val = 8192 * t.val + r.val; rw [e0]; omega
  | ⟨1, _⟩ => show win1_0.index t (1 : Fin 2) * 128 + 1 * d.val = d.val; rw [e1]; omega

theorem tblk_apply (c : Dev nD) (t : Fin cfg1.N) (r : Fin 8192) (hr : 8192 * t.val + r.val < 262144) :
    tblk V c t (ix2 r (0 : Fin 1)) = V c main_v0 (ix2 (⟨8192 * t.val + r.val, hr⟩ : Fin 262144) (0 : Fin 1)) := by
  obtain ⟨-, -, e0, e1, -, -, -, -, -⟩ := idx_facts t
  unfold tblk iblk1
  rw [View.read_apply]
  show V c main_v0 _ = V c main_v0 _
  congr 1
  funext a
  apply Fin.ext
  match a with
  | ⟨0, _⟩ => show win1_1.index t (0 : Fin 2) * 8192 + 1 * r.val = 8192 * t.val + r.val; rw [e0]; omega
  | ⟨1, _⟩ => show win1_1.index t (1 : Fin 2) * 1 + 1 * 0 = 0; rw [e1]

theorem cblk_apply (c : Dev nD) (t : Fin cfg1.N) (k : Fin 19) (d : Fin 128) :
    cblk V c t (ix2 k d) = V c main_v15 (ix2 k d) := by
  obtain ⟨-, -, -, -, e0, e1, -, -, -⟩ := idx_facts t
  unfold cblk iblk1
  rw [View.read_apply]
  show V c main_v15 _ = V c main_v15 _
  congr 1
  funext a
  apply Fin.ext
  match a with
  | ⟨0, _⟩ => show win1_2.index t (0 : Fin 2) * 19 + 1 * k.val = k.val; rw [e0]; omega
  | ⟨1, _⟩ => show win1_2.index t (1 : Fin 2) * 128 + 1 * d.val = d.val; rw [e1]; omega

end Run

end Cert.KernelIdeal.Pass2

end
-- ==== Proof.KernelGlue.lean ====
/-
  The host operations around the two regions: what each buffer the result depends on holds at each boundary.
  Before region 0 the labels are reshaped to a column. Between the regions the two stretch blocks of region 0 are
  summed, the class counts are a scatter-add of ones at the labels, and the table of class means is the quotient
  where the count is positive and zero elsewhere. After region 1 the two stretch sums are added and divided by the
  number of rows.
-/
import proofs.«416456_j77309412138_3_alg».proof.Proof.Pass2Value
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- The class counts as the kernel's program computes them: a scatter-add of ones at the labels. -/
def countsOf {F : FTy → Type} [FloatOps F] (t : IVec S262144 32) : FVec F S19 .f32 :=
  Host.scatterAdd scatter_S19_S262144x1_S262144_n_0_0_1
    (broadcastInDim S19 ![] bcast_S_S19 (constant S_ .f32 0x00000000#32))
    (broadcastInDim S262144x1 ![0] bcast_S262144_S262144x1_0 t)
    (broadcastInDim S262144 ![] bcast_S_S262144 (constant S_ .f32 0x3F800000#32))

/-- "The count is positive", per class, as a column of bits. -/
def positive {F : FTy → Type} [FloatOps F] (t : IVec S262144 32) : IVec S19x1 1 :=
  cmpf .ogt (broadcastInDim S19x1 ![0] bcast_S19_S19x1_0 (countsOf (F := F) t))
    (broadcastInDim S19x1 ![] bcast_S_S19x1 (constant (F := F) S_ .f32 0x00000000#32))

/-- The table of class means from region 0's two stretch blocks `P` and the labels. -/
def centersOf {F : FTy → Type} [FloatOps F] (P : FVec F S2x19x128 .f32) (t : IVec S262144 32) : FVec F S19x128 .f32 :=
  select (broadcastInDim S19x128 ![0, 1] bcast_S19x1_S19x128_0_1 (positive (F := F) t))
    (Host.divf (Host.reduceAdd P (constant S_ .f32 0x00000000#32) reducesTo_S2x19x128_S19x128_d0 h_S_)
      (broadcastInDim S19x128 ![0, 1] bcast_S19x1_S19x128_0_1
        (select (positive (F := F) t) (broadcastInDim S19x1 ![0] bcast_S19_S19x1_0 (countsOf (F := F) t))
          (broadcastInDim S19x1 ![] bcast_S_S19x1 (constant S_ .f32 0x3F800000#32)))))
    (broadcastInDim S19x128 ![] bcast_S_S19x128 (constant S_ .f32 0x00000000#32))

variable (m : (ℓ : Loc nD τ sig) → Buf (Elt Ideal) ℓ) (ρ : Dev nD → PrngReg)

/-! ## Region 0's entry -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_v0 (c : Dev nD) :
    V1 m ρ c main_v0 = shapeCast S262144x1 (m ((c : Thread nD τ).loc main_arg1)) shapeCasts_S262144_S262144x1 := by
  show StableHlo.after hostOps0 (W0 m ρ c) (Proc.devRef .tc main_v0) = _
  after_results
  rfl

/-! ## Region 0's exit -/

theorem W2_v1 (c : Dev nD) : W2 m ρ c (Proc.devRef .tc main_v1) = Pass1.part (V1 m ρ) c :=
  (W2_arr m ρ c 2).trans (Pass1.final (V1 m ρ) c)

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (V1_arg0 m ρ c))

theorem W2_v0 (c : Dev nD) :
    W2 m ρ c (Proc.devRef .tc main_v0) = shapeCast S262144x1 (m ((c : Thread nD τ).loc main_arg1)) shapeCasts_S262144_S262144x1 :=
  (W2_arr m ρ c 1).trans ((((dat0 (V1 m ρ) c).arrAt_in 1 rfl _).trans (A_eq0 (V1 m ρ) c 1)).trans (V1_v0 m ρ c))

set_option maxRecDepth 65536 in
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := V1_arg1 m ρ c

/-! ## Region 1's entry -/

theorem V6_arg0 (c : Dev nD) : V6 m ρ c main_arg0 = m ((c : Thread nD τ).loc main_arg0) := by
  show StableHlo.after hostOps1_3 (StableHlo.after hostOps1_2 (StableHlo.after hostOps1_1 (StableHlo.after hostOps1 (W2 m ρ c)))) (Proc.devRef .tc main_arg0) = _
  after_results
  exact W2_arg0 m ρ c

theorem V6_v0 (c : Dev nD) :
    V6 m ρ c main_v0 = shapeCast S262144x1 (m ((c : Thread nD τ).loc main_arg1)) shapeCasts_S262144_S262144x1 := by
  show StableHlo.after hostOps1_3 (StableHlo.after hostOps1_2 (StableHlo.after hostOps1_1 (StableHlo.after hostOps1 (W2 m ρ c)))) (Proc.devRef .tc main_v0) = _
  after_results
  exact W2_v0 m ρ c

/-! ### The four stretches between the regions, each read over any contents `Wv` it starts from -/

section Stretches

variable {F : FTy → Type} [FloatOps F] (Wv : Valuation τ sig (Elt F))

theorem s1_v2 : StableHlo.after hostOps1 Wv (Proc.devRef .tc main_v2)
    = Host.reduceAdd (F := F) (Wv (Proc.devRef .tc main_v1)) (constant S_ .f32 0x00000000#32) reducesTo_S2x19x128_S19x128_d0 h_S_ := by
  after_results

theorem s1_v7 : StableHlo.after hostOps1 Wv (Proc.devRef .tc main_v7)
    = broadcastInDim S19x1 ![0] bcast_S19_S19x1_0 (countsOf (F := F) (Wv (Proc.devRef .tc main_arg1))) := by
  after_results
  rfl

theorem s1_v9 : StableHlo.after hostOps1 Wv (Proc.devRef .tc main_v9) = positive (F := F) (Wv (Proc.devRef .tc main_arg1)) := by
  after_results
  rfl

theorem s1_cst3 : StableHlo.after hostOps1 Wv (Proc.devRef .tc main_cst_3) = constant (F := F) S_ .f32 0x3F800000#32 := by
  after_results

theorem s2_v10 : StableHlo.after hostOps1_1 Wv (Proc.devRef .tc main_v10)
    = select (Wv (Proc.devRef .tc main_v9) : IVec S19x1 1) (Wv (Proc.devRef .tc main_v7) : FVec F S19x1 .f32)
        (broadcastInDim S19x1 ![] bcast_S_S19x1 (Wv (Proc.devRef .tc main_cst_3) : FVec F S_ .f32)) := by
  after_results
  rfl

theorem s2_v2 : StableHlo.after hostOps1_1 Wv (Proc.devRef .tc main_v2) = Wv (Proc.devRef .tc main_v2) := by
  after_results

theorem s2_v7 : StableHlo.after hostOps1_1 Wv (Proc.devRef .tc main_v7) = Wv (Proc.devRef .tc main_v7) := by
  after_results

theorem s3_v14 : StableHlo.after hostOps1_2 Wv (Proc.devRef .tc main_v14)
    = Host.divf (F := F) (Wv (Proc.devRef .tc main_v2)) (broadcastInDim S19x128 ![0, 1] bcast_S19x1_S19x128_0_1 (Wv (Proc.devRef .tc main_v10) : FVec F S19x1 .f32)) := by
  after_results

theorem s3_v12 : StableHlo.after hostOps1_2 Wv (Proc.devRef .tc main_v12)
    = cmpf .ogt (Wv (Proc.devRef .tc main_v7) : FVec F S19x1 .f32) (broadcastInDim S19x1 ![] bcast_S_S19x1 (constant (F := F) S_ .f32 0x00000000#32)) := by
  after_results

theorem s3_cst5 : StableHlo.after hostOps1_2 Wv (Proc.devRef .tc main_cst_5) = constant (F := F) S_ .f32 0x00000000#32 := by
  after_results

theorem s4_v15 : StableHlo.after hostOps1_3 Wv (Proc.devRef .tc main_v15)
    = select (broadcastInDim S19x128 ![0, 1] bcast_S19x1_S19x128_0_1 (Wv (Proc.devRef .tc main_v12) : IVec S19x1 1))
        (Wv (Proc.devRef .tc main_v14) : FVec F S19x128 .f32)
        (broadcastInDim S19x128 ![] bcast_S_S19x128 (Wv (Proc.devRef .tc main_cst_5) : FVec F S_ .f32)) := by
  after_results
  rfl

end Stretches

theorem V6_v15_raw (c : Dev nD) :
    V6 m ρ c main_v15 = centersOf (F := Ideal) (W2 m ρ c (Proc.devRef .tc main_v1)) (W2 m ρ c (Proc.devRef .tc main_arg1)) := by
  show StableHlo.after hostOps1_3 (W5 m ρ c) (Proc.devRef .tc main_v15) = _
  rw [s4_v15]
  rw [show W5 m ρ c = StableHlo.after hostOps1_2 (W4 m ρ c) from rfl, s3_v12, s3_v14, s3_cst5]
  rw [show W4 m ρ c = StableHlo.after hostOps1_1 (W3 m ρ c) from rfl, s2_v7, s2_v2, s2_v10]
  rw [show W3 m ρ c = StableHlo.after hostOps1 (W2 m ρ c) from rfl, s1_v7, s1_v2, s1_v9, s1_cst3]
  rfl

theorem V6_v15 (c : Dev nD) :
    V6 m ρ c main_v15 = centersOf (F := Ideal) (Pass1.part (V1 m ρ) c) (m ((c : Thread nD τ).loc main_arg1)) := by
  rw [V6_v15_raw, W2_v1, W2_arg1]

/-! ## Region 1's exit and the result -/

theorem W7_v16 (c : Dev nD) : W7 m ρ c (Proc.devRef .tc main_v16) = Pass2.part (V6 m ρ) c :=
  (W7_arr m ρ c 3).trans (Pass2.final (V6 m ρ) c)

theorem W8_v18 (c : Dev nD) :
    W8 m ρ c (Proc.devRef .tc main_v18)
      = Host.divf (F := Ideal) (Host.reduceAdd (F := Ideal) (Pass2.part (V6 m ρ) c) (constant S_ .f32 0x00000000#32) reducesTo_S2x1x1_S_d0_1_2 h_S_)
          (constant S_ .f32 0x48800000#32) := by
  rw [← W7_v16]
  show StableHlo.after hostOps2 (W7 m ρ c) (Proc.devRef .tc main_v18) = _
  after_results

end Cert.KernelIdeal.Glue

end
-- ==== Proof.KernelValue.lean ====
/-
  The kernel's result is the loss of Spec.lean at the class counts the kernel's own program computes: the two regions'
  row-blocked, point-by-point accumulations are sums over all 262144 rows, the table of class means between them is
  the class mean where the count is positive and the zero row elsewhere.
-/
import proofs.«416456_j77309412138_3_alg».proof.Proof.KernelGlue
import Idealize.ShloMosaic.Lib.IdealHost

set_option maxRecDepth 16384

noncomputable section

open scoped BigOperators

namespace Cert.KernelIdeal.Value

open Cert.KernelIdeal Cert.KernelIdeal.Gen
open Idealize.ShloMosaic Idealize.ShloMosaic.TcCoe Idealize.SL.Sem Idealize.ShloMosaic.ValueIdx
open Cert.PixelLoss (hot segsum center picked loss rowOf)

/-- The class counts the kernel's program computes, read at class `k`. -/
def counts (t : IVec S262144 32) (k : Fin 19) : EReal := Glue.countsOf (F := Ideal) t (ix1 k)

/-! ## Layout operations read at an index -/

/-- The labels viewed as a column read (i, 0) at i. -/
theorem col_apply (t : IVec S262144 32) (i : Fin 262144) (w : Fin 1) :
    shapeCast S262144x1 t shapeCasts_S262144_S262144x1 (ix2 i w) = t (ix1 i) :=
  shapeCast_apply t shapeCasts_S262144_S262144x1 _ _ (by
    have hw : w.val = 0 := by omega
    rw [Shape.rowMajor_val_two, Shape.rowMajor_val_one]
    show i.val = i.val * 1 + w.val
    rw [hw]; omega)

theorem bcast_col {α : Type} (y : S19x1.Idx → α) (k : Fin 19) (d : Fin 128) :
    broadcastInDim S19x128 ![0, 1] bcast_S19x1_S19x128_0_1 y (ix2 k d) = y (ix2 k (0 : Fin 1)) :=
  broadcastInDim_apply _ bcast_S19x1_S19x128_0_1 y (ix2 k d) (ix2 k (0 : Fin 1)) (fun a => match a with
    | ⟨0, _⟩ => by show k.val = if (19 : Nat) = 1 then 0 else k.val; rw [if_neg (by decide)]
    | ⟨1, _⟩ => by show 0 = if (1 : Nat) = 1 then 0 else d.val; rw [if_pos rfl])

theorem bcast_vec {α : Type} (y : S19.Idx → α) (k : Fin 19) (w : Fin 1) :
    broadcastInDim S19x1 ![0] bcast_S19_S19x1_0 y (ix2 k w) = y (ix1 k) :=
  broadcastInDim_apply _ bcast_S19_S19x1_0 y (ix2 k w) (ix1 k) (fun a => match a with
    | ⟨0, _⟩ => by show k.val = if (19 : Nat) = 1 then 0 else k.val; rw [if_neg (by decide)])

theorem hostDivf_apply {s : Shape} (a b : FVec Ideal s .f32) (i : s.Idx) : Host.divf a b i = Ideal.div (a i) (b i) := rfl

theorem red0 : S2x19x128.Reduces [0] S19x128 := by decide

/-- The [2, 1, 1] index set is the two stretches. -/
def stretchEquiv : S2x1x1.Idx ≃ Fin 2 where
  toFun i := i 0
  invFun s := ix3 s (0 : Fin 1) (0 : Fin 1)
  left_inv i := funext fun a => Fin.ext (by
    match a with
    | ⟨0, _⟩ => rfl
    | ⟨1, _⟩ => show 0 = (i 1).val; have h : (i 1).val < 1 := (i 1).isLt; omega
    | ⟨2, _⟩ => show 0 = (i 2).val; have h : (i 2).val < 1 := (i 2).isLt; omega)
  right_inv _ := rfl

section Run

variable (m : (ℓ : Loc nD τ sig) → Buf (Elt Ideal) ℓ) (ρ : Dev nD → PrngReg)

/-- The two argument arrays at launch. -/
abbrev X (c : Dev nD) : FVec Ideal S262144x128 .f32 := m ((c : Thread nD τ).loc main_arg0)
abbrev T (c : Dev nD) : IVec S262144 32 := m ((c : Thread nD τ).loc main_arg1)

/-! ## Region 0: the sums of the rows by class -/

/-- What point `p` of region 0 adds is the one-hot product over row block `p`. -/
theorem tile1_eq (c : Dev nD) (p : Fin 32) (k : Fin 19) (d : Fin 128) :
    Pass1.tileP (V1 m ρ) c p.val k d = ∑ r : Fin 8192, hot (T m c (ix1 (rowOf p r))) k * X m c (ix2 (rowOf p r) d) := by
  have hp : p.val < cfg0.N := lt_of_lt_of_eq p.isLt (show cfg0.N = 32 from N_0).symm
  unfold Pass1.tileP
  rw [dif_pos hp]
  unfold Pass1.tileAt
  refine Finset.sum_congr rfl fun r _ => ?_
  have hr : 8192 * p.val + r.val < 262144 := by have := p.isLt; have := r.isLt; omega
  rw [Pass1.xblk_apply (V1 m ρ) c ⟨p.val, hp⟩ r d hr, Pass1.tblk_apply (V1 m ρ) c ⟨p.val, hp⟩ r hr,
    Glue.V1_arg0, Glue.V1_v0, col_apply]
  rfl

/-- The two stretch blocks summed are the sums of the rows by class. -/
theorem segsum_eq (c : Dev nD) (k : Fin 19) (d : Fin 128) :
    Host.reduceAdd (F := Ideal) (Pass1.part (V1 m ρ) c) (constant S_ .f32 0x00000000#32) reducesTo_S2x19x128_S19x128_d0 h_S_ (ix2 k d)
      = segsum (X m c) (T m c) k d := by
  simp only [Host.reduceAdd, Ideal.hostReduceAdd_def]
  rw [Ideal.hostReduceAdd_single reducesTo_S2x19x128_S19x128_d0 red0]
  show Ideal.ofBits .f32 0x00000000#32 + ∑ s : Fin 2, Pass1.part (V1 m ρ) c (red0.lift (ix2 k d) s) = _
  rw [Ideal.ofBits_zero_f32, zero_add]
  have e : ∀ s : Fin 2, red0.lift (ix2 k d) s = ix3 s k d := fun s => funext fun a => Fin.ext (by
    match a with
    | ⟨0, _⟩ => rfl
    | ⟨1, _⟩ => rfl
    | ⟨2, _⟩ => rfl)
  calc ∑ s : Fin 2, Pass1.part (V1 m ρ) c (red0.lift (ix2 k d) s)
      = ∑ s : Fin 2, ∑ j ∈ Finset.range 16, Pass1.tileP (V1 m ρ) c (16 * s.val + j) k d :=
        Finset.sum_congr rfl fun s _ => by rw [e s]; rfl
    _ = ∑ p : Fin 32, Pass1.tileP (V1 m ρ) c p.val k d :=
        Cert.PixelLoss.sum_two_stretches (fun p => Pass1.tileP (V1 m ρ) c p k d)
    _ = ∑ p : Fin 32, ∑ r : Fin 8192, hot (T m c (ix1 (rowOf p r))) k * X m c (ix2 (rowOf p r) d) :=
        Finset.sum_congr rfl fun p _ => tile1_eq m ρ c p k d
    _ = ∑ i : Fin 262144, hot (T m c (ix1 i)) k * X m c (ix2 i d) :=
        Cert.PixelLoss.sum_blocks (fun i => hot (T m c (ix1 i)) k * X m c (ix2 i d))
    _ = segsum (X m c) (T m c) k d := rfl

/-! ## Between the regions: the table of class means -/

theorem positive_apply (t : IVec S262144 32) (k : Fin 19) :
    Glue.positive (F := Ideal) t (ix2 k (0 : Fin 1)) = BitVec.ofBool (decide (0 < counts t k)) := by
  unfold Glue.positive
  rw [cmpf_apply, bcast_vec, broadcastInDim_scalar_apply]
  show Ideal.cmp .ogt (counts t k) (Ideal.ofBits .f32 0x00000000#32) = _
  rw [Ideal.ofBits_zero_f32]
  rfl

/-- The table at class `k`, feature `d` is the class mean where the count is positive, zero elsewhere. -/
theorem centers_eq (c : Dev nD) (k : Fin 19) (d : Fin 128) :
    Glue.centersOf (F := Ideal) (Pass1.part (V1 m ρ) c) (T m c) (ix2 k d)
      = center (counts (T m c)) (X m c) (T m c) k d := by
  unfold Glue.centersOf center
  rw [select_apply, bcast_col, positive_apply]
  by_cases h : 0 < counts (T m c) k
  · have hb : BitVec.ofBool (decide (0 < counts (T m c) k)) = 1#1 := by rw [decide_eq_true h]; rfl
    rw [if_pos h, hb, select_one, hostDivf_apply, segsum_eq, bcast_col, select_apply, positive_apply, hb, select_one, bcast_vec]
    rfl
  · have hb : BitVec.ofBool (decide (0 < counts (T m c) k)) = 0#1 := by rw [decide_eq_false h]; rfl
    rw [if_neg h, hb, select_zero, broadcastInDim_scalar_apply]
    exact Ideal.ofBits_zero_f32

/-! ## Region 1: the sum of the distances -/

/-- What point `p` of region 1 adds is the sum of the distances over row block `p`. -/
theorem tile2_eq (c : Dev nD) (p : Fin 32) :
    Pass2.tileP (V6 m ρ) c p.val = ∑ r : Fin 8192, Cert.PixelLoss.dist (counts (T m c)) (X m c) (T m c) (rowOf p r) := by
  have hp : p.val < cfg1.N := lt_of_lt_of_eq p.isLt (show cfg1.N = 32 from N_1).symm
  unfold Pass2.tileP
  rw [dif_pos hp]
  refine Finset.sum_congr rfl fun r _ => ?_
  have hr : 8192 * p.val + r.val < 262144 := by have := p.isLt; have := r.isLt; omega
  unfold Pass2.distAt Cert.PixelLoss.dist
  refine congrArg Ideal.sqrt (Finset.sum_congr rfl fun d _ => ?_)
  have hx : Pass2.xblk (V6 m ρ) c ⟨p.val, hp⟩ (ix2 r d) = X m c (ix2 (rowOf p r) d) := by
    rw [Pass2.xblk_apply (V6 m ρ) c ⟨p.val, hp⟩ r d hr, Glue.V6_arg0]
    rfl
  have hpick : Pass2.pickAt (Pass2.tblk (V6 m ρ) c ⟨p.val, hp⟩) (Pass2.cblk (V6 m ρ) c ⟨p.val, hp⟩) r d
      = picked (counts (T m c)) (X m c) (T m c) (rowOf p r) d := by
    unfold Pass2.pickAt picked
    refine Finset.sum_congr rfl fun k _ => ?_
    rw [Pass2.tblk_apply (V6 m ρ) c ⟨p.val, hp⟩ r hr, Glue.V6_v0, col_apply, Pass2.cblk_apply, Glue.V6_v15, centers_eq]
    rfl
  rw [hx, hpick]

/-- The kernel's result: the loss at the counts its own program computes. -/
theorem kernel_value (c : Dev nD) :
    W8 m ρ c (Proc.devRef .tc main_v18) = fun _ => loss (counts (T m c)) (X m c) (T m c) := by
  rw [Glue.W8_v18]
  funext j
  rw [hostDivf_apply]
  unfold loss
  refine congrArg (Ideal.div · (Ideal.ofBits .f32 0x48800000#32)) ?_
  simp only [Host.reduceAdd, Ideal.hostReduceAdd_def]
  rw [Ideal.hostReduceAdd_total reducesTo_S2x1x1_S_d0_1_2 (fun b => b.elim0)]
  show Ideal.ofBits .f32 0x00000000#32 + ∑ i : S2x1x1.Idx, Pass2.part (V6 m ρ) c i = _
  rw [Ideal.ofBits_zero_f32, zero_add, ← Equiv.sum_comp stretchEquiv.symm]
  calc ∑ s : Fin 2, Pass2.part (V6 m ρ) c (stretchEquiv.symm s)
      = ∑ s : Fin 2, ∑ j ∈ Finset.range 16, Pass2.tileP (V6 m ρ) c (16 * s.val + j) := rfl
    _ = ∑ p : Fin 32, Pass2.tileP (V6 m ρ) c p.val :=
        Cert.PixelLoss.sum_two_stretches (fun p => Pass2.tileP (V6 m ρ) c p)
    _ = ∑ p : Fin 32, ∑ r : Fin 8192, Cert.PixelLoss.dist (counts (T m c)) (X m c) (T m c) (rowOf p r) :=
        Finset.sum_congr rfl fun p _ => tile2_eq m ρ c p
    _ = ∑ i : Fin 262144, Cert.PixelLoss.dist (counts (T m c)) (X m c) (T m c) i :=
        Cert.PixelLoss.sum_blocks (fun i => Cert.PixelLoss.dist (counts (T m c)) (X m c) (T m c) i)

end Run

end Cert.KernelIdeal.Value

end
-- ==== Proof.RefValue.lean ====
/-
  The reference's result, read one operation at a time, is the loss of Spec.lean at the class counts the reference
  itself computes — for labels that are class numbers.
-/
import proofs.«416456_j77309412138_3_alg».proof.Proof.Gen.ReferenceIdeal.Run
import proofs.«416456_j77309412138_3_alg».proof.Proof.Gen.ReferenceIdeal.Read
import proofs.«416456_j77309412138_3_alg».proof.Proof.Spec
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

/-- The class counts as the reference computes them: its scatter-add of ones at the labels, read at class `k`. -/
def counts (t : IVec S262144 32) (k : Fin 19) : EReal :=
  Host.scatterAdd (F := Ideal) scatter_S19_S262144x1_S262144_n_0_0_1
    (broadcastInDim S19 ![] bcast_S_S19 (constant S_ .f32 0x00000000#32))
    (broadcastInDim S262144x1 ![0] bcast_S262144_S262144x1_0 t)
    (broadcastInDim S262144 ![] bcast_S_S262144 (constant S_ .f32 0x3F800000#32)) (ix1 k)

/-! ## The three index-dependent operations, decoded on the literal dimension numbers -/

theorem row_start0 {w : Nat} (i : Fin 262144) (d' : Fin 128) (idx : IVec S262144x1 w) :
    scatter_S19x128_S262144x1_S262144x128_1_0_0_1.start (ix2 i d') idx 0 = (idx (ix2 i 0)).toInt := by
  unfold ScatterDims.start
  rw [dif_pos (by exact List.mem_singleton.mpr rfl)]
  congr 2
  funext b
  match b with
  | ⟨0, _⟩ => rfl
  | ⟨1, _⟩ => rfl

theorem row_resultIdx {w : Nat} (i : Fin 262144) (d' : Fin 128) (idx : IVec S262144x1 w) (k : Fin 19) (d : Fin 128) :
    scatter_S19x128_S262144x1_S262144x128_1_0_0_1.resultIdx? (ix2 i d') idx = some (ix2 k d)
      ↔ (idx (ix2 i 0)).toInt = (k.val : Int) ∧ d' = d := by
  have hs0 := row_start0 i d' idx
  have hs1 : scatter_S19x128_S262144x1_S262144x128_1_0_0_1.start (ix2 i d') idx 1 = 0 := rfl
  have hw0 : scatter_S19x128_S262144x1_S262144x128_1_0_0_1.window (ix2 i d') 0 = 0 := rfl
  have hw1 : scatter_S19x128_S262144x1_S262144x128_1_0_0_1.window (ix2 i d') 1 = d'.val := rfl
  have hk := k.isLt
  have hd' := d'.isLt
  unfold ScatterDims.resultIdx?
  split
  · next h =>
    constructor
    · intro e
      have e' := Option.some.inj e
      have e0 : (scatter_S19x128_S262144x1_S262144x128_1_0_0_1.start (ix2 i d') idx 0
          + scatter_S19x128_S262144x1_S262144x128_1_0_0_1.window (ix2 i d') 0).toNat = k.val :=
        congrArg (fun f => (f 0).val) e'
      have e1 : (scatter_S19x128_S262144x1_S262144x128_1_0_0_1.start (ix2 i d') idx 1
          + scatter_S19x128_S262144x1_S262144x128_1_0_0_1.window (ix2 i d') 1).toNat = d.val :=
        congrArg (fun f => (f 1).val) e'
      have h0 := (h 0).1
      rw [hs0, hw0] at e0 h0
      rw [hs1, hw1] at e1
      exact ⟨by omega, Fin.ext (by omega)⟩
    · rintro ⟨hz, rfl⟩
      congr 1
      funext a
      match a with
      | ⟨0, _⟩ =>
        refine Fin.ext ?_
        show (scatter_S19x128_S262144x1_S262144x128_1_0_0_1.start (ix2 i d') idx 0
          + scatter_S19x128_S262144x1_S262144x128_1_0_0_1.window (ix2 i d') 0).toNat = k.val
        rw [hs0, hw0]; omega
      | ⟨1, _⟩ =>
        refine Fin.ext ?_
        show (scatter_S19x128_S262144x1_S262144x128_1_0_0_1.start (ix2 i d') idx 1
          + scatter_S19x128_S262144x1_S262144x128_1_0_0_1.window (ix2 i d') 1).toNat = d'.val
        rw [hs1, hw1]; omega
  · next h =>
    constructor
    · intro e; cases e
    · rintro ⟨hz, rfl⟩
      exfalso; apply h; intro a
      match a with
      | ⟨0, _⟩ =>
        show 0 ≤ scatter_S19x128_S262144x1_S262144x128_1_0_0_1.start (ix2 i d') idx 0
            + scatter_S19x128_S262144x1_S262144x128_1_0_0_1.window (ix2 i d') 0
          ∧ scatter_S19x128_S262144x1_S262144x128_1_0_0_1.start (ix2 i d') idx 0
            + scatter_S19x128_S262144x1_S262144x128_1_0_0_1.window (ix2 i d') 0 < ((19 : Nat) : Int)
        rw [hs0, hw0]; omega
      | ⟨1, _⟩ =>
        show 0 ≤ scatter_S19x128_S262144x1_S262144x128_1_0_0_1.start (ix2 i d') idx 1
            + scatter_S19x128_S262144x1_S262144x128_1_0_0_1.window (ix2 i d') 1
          ∧ scatter_S19x128_S262144x1_S262144x128_1_0_0_1.start (ix2 i d') idx 1
            + scatter_S19x128_S262144x1_S262144x128_1_0_0_1.window (ix2 i d') 1 < ((128 : Nat) : Int)
        rw [hs1, hw1]; omega

theorem cnt_start0 {w : Nat} (i : Fin 262144) (idx : IVec S262144x1 w) :
    scatter_S19_S262144x1_S262144_n_0_0_1.start (ix1 i) idx 0 = (idx (ix2 i 0)).toInt := by
  unfold ScatterDims.start
  rw [dif_pos (by exact List.mem_singleton.mpr rfl)]
  congr 2
  funext b
  match b with
  | ⟨0, _⟩ => rfl
  | ⟨1, _⟩ => rfl

theorem cnt_resultIdx {w : Nat} (i : Fin 262144) (idx : IVec S262144x1 w) (k : Fin 19) :
    scatter_S19_S262144x1_S262144_n_0_0_1.resultIdx? (ix1 i) idx = some (ix1 k)
      ↔ (idx (ix2 i 0)).toInt = (k.val : Int) := by
  have hs0 := cnt_start0 i idx
  have hw0 : scatter_S19_S262144x1_S262144_n_0_0_1.window (ix1 i) 0 = 0 := rfl
  have hk := k.isLt
  unfold ScatterDims.resultIdx?
  split
  · next h =>
    constructor
    · intro e
      have e' := Option.some.inj e
      have e0 : (scatter_S19_S262144x1_S262144_n_0_0_1.start (ix1 i) idx 0
          + scatter_S19_S262144x1_S262144_n_0_0_1.window (ix1 i) 0).toNat = k.val :=
        congrArg (fun f => (f 0).val) e'
      have h0 := (h 0).1
      rw [hs0, hw0] at e0 h0
      omega
    · intro hz
      congr 1
      funext a
      match a with
      | ⟨0, _⟩ =>
        refine Fin.ext ?_
        show (scatter_S19_S262144x1_S262144_n_0_0_1.start (ix1 i) idx 0
          + scatter_S19_S262144x1_S262144_n_0_0_1.window (ix1 i) 0).toNat = k.val
        rw [hs0, hw0]; omega
  · next h =>
    constructor
    · intro e; cases e
    · intro hz
      exfalso; apply h; intro a
      match a with
      | ⟨0, _⟩ =>
        show 0 ≤ scatter_S19_S262144x1_S262144_n_0_0_1.start (ix1 i) idx 0
            + scatter_S19_S262144x1_S262144_n_0_0_1.window (ix1 i) 0
          ∧ scatter_S19_S262144x1_S262144_n_0_0_1.start (ix1 i) idx 0
            + scatter_S19_S262144x1_S262144_n_0_0_1.window (ix1 i) 0 < ((19 : Nat) : Int)
        rw [hs0, hw0]; omega

theorem gather_row {α : Type} {w : Nat} (x : S19x128.Idx → α) (idx : IVec S262144x1 w) (i : Fin 262144) (d : Fin 128) :
    Host.gather gather_S19x128_S262144x1_S262144x128_1_0_n_n_0_1_1128 x idx (ix2 i d)
      = x (ix2 ⟨min (idx (ix2 i 0)).toInt.toNat 18, by omega⟩ d) := by
  unfold Host.gather
  congr 1
  funext a
  match a with
  | ⟨0, _⟩ =>
    refine Fin.ext ?_
    show gather_S19x128_S262144x1_S262144x128_1_0_n_n_0_1_1128.start (ix2 i d) idx 0
      + gather_S19x128_S262144x1_S262144x128_1_0_n_n_0_1_1128.batchCoord (ix2 i d) 0
      + gather_S19x128_S262144x1_S262144x128_1_0_n_n_0_1_1128.offCoord (ix2 i d) 0 = min (idx (ix2 i 0)).toInt.toNat 18
    have hb : gather_S19x128_S262144x1_S262144x128_1_0_n_n_0_1_1128.batchCoord (ix2 i d) 0 = 0 := rfl
    have ho : gather_S19x128_S262144x1_S262144x128_1_0_n_n_0_1_1128.offCoord (ix2 i d) 0 = 0 := rfl
    rw [hb, ho]
    simp only [Nat.add_zero]
    unfold GatherDims.start
    rw [dif_pos (by exact List.mem_singleton.mpr rfl)]
    have hsi : gather_S19x128_S262144x1_S262144x128_1_0_n_n_0_1_1128.siIdx (ix2 i d)
        ⟨List.idxOf (0 : Fin 2) gather_S19x128_S262144x1_S262144x128_1_0_n_n_0_1_1128.startIndexMap,
          List.idxOf_lt_length_iff.2 (List.mem_singleton.mpr rfl)⟩ = ix2 i 0 := by
      funext b
      match b with
      | ⟨0, _⟩ => rfl
      | ⟨1, _⟩ => rfl
    rw [hsi]
    rfl
  | ⟨1, _⟩ =>
    refine Fin.ext ?_
    show gather_S19x128_S262144x1_S262144x128_1_0_n_n_0_1_1128.start (ix2 i d) idx 1
      + gather_S19x128_S262144x1_S262144x128_1_0_n_n_0_1_1128.batchCoord (ix2 i d) 1
      + gather_S19x128_S262144x1_S262144x128_1_0_n_n_0_1_1128.offCoord (ix2 i d) 1 = d.val
    have hs : gather_S19x128_S262144x1_S262144x128_1_0_n_n_0_1_1128.start (ix2 i d) idx 1 = 0 := rfl
    have hb : gather_S19x128_S262144x1_S262144x128_1_0_n_n_0_1_1128.batchCoord (ix2 i d) 1 = 0 := rfl
    have ho : gather_S19x128_S262144x1_S262144x128_1_0_n_n_0_1_1128.offCoord (ix2 i d) 1 = d.val := rfl
    rw [hs, hb, ho, Nat.add_zero, Nat.zero_add]

/-! ## Words and one-hot weights -/

theorem toInt_label (w : BitVec 32) (h : w.toNat < 19) : w.toInt = (w.toNat : Int) :=
  StableHlo.Predicate.toInt_eq_toNat_of_lt (by omega)

theorem label_eq_iff (w : BitVec 32) (h : w.toNat < 19) (k : Fin 19) :
    w.toInt = (k.val : Int) ↔ w = BitVec.ofNat 32 k.val := by
  have hk := k.isLt
  rw [toInt_label w h]
  constructor
  · intro e
    apply BitVec.eq_of_toNat_eq
    rw [BitVec.toNat_ofNat, Nat.mod_eq_of_lt (by omega)]
    omega
  · intro e
    rw [e, BitVec.toNat_ofNat, Nat.mod_eq_of_lt (by omega)]

theorem hot_mul (w : BitVec 32) (k : Fin 19) (y : EReal) :
    Cert.PixelLoss.hot w k * y = if w = BitVec.ofNat 32 k.val then y else 0 := by
  unfold Cert.PixelLoss.hot
  by_cases h : w = BitVec.ofNat 32 k.val
  · rw [if_pos h, if_pos h, one_mul]
  · rw [if_neg h, if_neg h, zero_mul]

theorem hot_nonneg (w : BitVec 32) (k : Fin 19) : 0 ≤ Cert.PixelLoss.hot w k := by
  unfold Cert.PixelLoss.hot
  by_cases h : w = BitVec.ofNat 32 k.val
  · rw [if_pos h]; exact zero_le_one
  · rw [if_neg h]

theorem hot_self (w : BitVec 32) (h : w.toNat < 19) : Cert.PixelLoss.hot w ⟨w.toNat, h⟩ = 1 := by
  unfold Cert.PixelLoss.hot
  rw [if_pos]
  apply BitVec.eq_of_toNat_eq
  rw [BitVec.toNat_ofNat, Nat.mod_eq_of_lt (by omega)]

/-! ## Sums over a rank-1 index set -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The index vectors read at a row -/

theorem idx_v1 (i : Fin 262144) (c : Fin 1) : Read.idx_main_v1 (ix2 i c) = ix1 i := by
  funext a; match a with | ⟨0, _⟩ => rfl

theorem v1_at (t : IVec S262144 32) (i : Fin 262144) :
    Read.val_main_v1 (F := Ideal) t (ix2 i 0) = t (ix1 i) := by
  rw [Read.val_main_v1_apply, idx_v1]

theorem v5_at (t : IVec S262144 32) (i : Fin 262144) :
    Read.val_main_v5 (F := Ideal) t (ix2 i 0) = t (ix1 i) := by
  rw [Read.val_main_v5_apply]; exact congrArg t (idx_v1 i 0)

/-! ## The row scatter: the sum of the rows of each class -/

/-- The host's scatter with an add body, read at an element: the operand's element plus the updates that land on it. -/
theorem scatterAdd_apply {s si u : Shape} {w : Nat} (d : ScatterDims s si u) (x : FVec Ideal s .f32) (idx : IVec si w)
    (upd : FVec Ideal u .f32) (i : s.Idx) :
    Host.scatterAdd d x idx upd i
      = x i + ∑ j ∈ Finset.univ.filter (fun j => d.resultIdx? j idx = some i), upd j := rfl

theorem v2_at (x : FVec Ideal S262144x128 .f32) (t : IVec S262144 32)
    (hT : ∀ i : Fin 262144, (t (ix1 i)).toNat < 19) (k : Fin 19) (d : Fin 128) :
    Read.val_main_v2 (F := Ideal) x t (ix2 k d) = 0 + Cert.PixelLoss.segsum x t k d := by
  unfold Read.val_main_v2
  rw [scatterAdd_apply]
  refine congrArg₂ (· + ·) ?_ ?_
  · rw [Read.val_main_v0_apply, Read.val_main_cst_apply]; exact Ideal.ofBits_zero_f32
  · rw [Finset.sum_filter, sum_idx2]
    unfold Cert.PixelLoss.segsum
    refine Finset.sum_congr rfl fun i _ => ?_
    rw [hot_mul]
    by_cases h : t (ix1 i) = BitVec.ofNat 32 k.val
    · rw [if_pos h]
      rw [Finset.sum_eq_single d]
      · rw [if_pos]
        rw [row_resultIdx, v1_at]
        exact ⟨(label_eq_iff _ (hT i) k).2 h, rfl⟩
      · intro d' _ hne
        rw [if_neg]
        rw [row_resultIdx]
        exact fun hh => hne hh.2
      · intro hd; exact absurd (Finset.mem_univ d) hd
    · rw [if_neg h]
      refine Finset.sum_eq_zero fun d' _ => ?_
      rw [if_neg]
      rw [row_resultIdx, v1_at]
      exact fun hh => h ((label_eq_iff _ (hT i) k).1 hh.1)

/-! ## The count scatter: the number of rows of each class -/

theorem one_f32 : Ideal.ofBits .f32 0x3F800000#32 = 1 := by
  simp [Ideal.ofBits, Ideal.ieee, -EReal.coe_mul]; norm_num

theorem counts_eq_v6 (t : IVec S262144 32) (k : Fin 19) :
    counts t k = Read.val_main_v6 (F := Ideal) t (ix1 k) := rfl

theorem v6_at (t : IVec S262144 32) (hT : ∀ i : Fin 262144, (t (ix1 i)).toNat < 19) (k : Fin 19) :
    Read.val_main_v6 (F := Ideal) t (ix1 k) = 0 + ∑ i : Fin 262144, Cert.PixelLoss.hot (t (ix1 i)) k := by
  unfold Read.val_main_v6
  rw [scatterAdd_apply]
  refine congrArg₂ (· + ·) ?_ ?_
  · rw [Read.val_main_v4_apply, Read.val_main_cst_1_apply]; exact Ideal.ofBits_zero_f32
  · rw [Finset.sum_filter, sum_idx1]
    refine Finset.sum_congr rfl fun i _ => ?_
    rw [Read.val_main_v3_apply, Read.val_main_cst_0_apply]
    unfold Cert.PixelLoss.hot
    by_cases h : t (ix1 i) = BitVec.ofNat 32 k.val
    · rw [if_pos h, if_pos]
      · exact one_f32
      · rw [cnt_resultIdx, v5_at]; exact (label_eq_iff _ (hT i) k).2 h
    · rw [if_neg h, if_neg]
      rw [cnt_resultIdx, v5_at]; exact fun hh => h ((label_eq_iff _ (hT i) k).1 hh)

/-- Every row's own class has a positive count. -/
theorem counts_pos (t : IVec S262144 32) (hT : ∀ i : Fin 262144, (t (ix1 i)).toNat < 19) (i : Fin 262144) :
    0 < counts t ⟨(t (ix1 i)).toNat, hT i⟩ := by
  rw [counts_eq_v6, v6_at t hT, zero_add]
  have h1 : Cert.PixelLoss.hot (t (ix1 i)) ⟨(t (ix1 i)).toNat, hT i⟩
      ≤ ∑ j : Fin 262144, Cert.PixelLoss.hot (t (ix1 j)) ⟨(t (ix1 i)).toNat, hT i⟩ :=
    Finset.single_le_sum (f := fun j => Cert.PixelLoss.hot (t (ix1 j)) ⟨(t (ix1 i)).toNat, hT i⟩)
      (fun j _ => hot_nonneg _ _) (Finset.mem_univ i)
  rw [hot_self] at h1
  exact lt_of_lt_of_le zero_lt_one h1

/-! ## The class means -/

theorem v8_at (t : IVec S262144 32) (k : Fin 19) (d : Fin 128) :
    Read.val_main_v8 (F := Ideal) t (ix2 k d) = counts t k := by
  rw [Read.val_main_v8_apply, Read.val_main_v7_apply, counts_eq_v6]
  refine congrArg _ ?_
  funext a; match a with | ⟨0, _⟩ => rfl

theorem v9_at (x : FVec Ideal S262144x128 .f32) (t : IVec S262144 32)
    (hT : ∀ i : Fin 262144, (t (ix1 i)).toNat < 19) (k : Fin 19) (d : Fin 128) :
    Read.val_main_v9 (F := Ideal) x t (ix2 k d) = Ideal.div (Cert.PixelLoss.segsum x t k d) (counts t k) := by
  rw [Read.val_main_v9_apply, v2_at x t hT, v8_at, zero_add]; rfl

/-! ## The gather: each row's own class mean -/

theorem v14_at (t : IVec S262144 32) (hT : ∀ i : Fin 262144, (t (ix1 i)).toNat < 19) (i : Fin 262144) :
    Read.val_main_v14 (F := Ideal) t (ix1 i) = t (ix1 i) := by
  rw [Read.val_main_v14_apply, Read.val_main_v11_apply, Read.val_main_v10_apply, Read.val_main_c_apply]
  have h0 : IntOp.cmpi .slt (t (ix1 i)) 0#32 = 0#1 := by
    apply eq_zero_of_ne_one
    rw [StableHlo.Predicate.slt_iff_toNat (by have := hT i; omega) (by decide)]
    intro hh
    have hz : (0#32 : BitVec 32).toNat = 0 := rfl
    omega
  rw [h0, select_zero]

theorem v15_at (t : IVec S262144 32) (hT : ∀ i : Fin 262144, (t (ix1 i)).toNat < 19) (i : Fin 262144) :
    Read.val_main_v15 (F := Ideal) t (ix2 i 0) = t (ix1 i) := by
  rw [Read.val_main_v15_apply]
  have hi : Read.idx_main_v15 (ix2 i (0 : Fin 1)) = ix1 i := by
    funext a; match a with | ⟨0, _⟩ => rfl
  rw [hi, v14_at t hT]

theorem v16_at (x : FVec Ideal S262144x128 .f32) (t : IVec S262144 32)
    (hT : ∀ i : Fin 262144, (t (ix1 i)).toNat < 19) (i : Fin 262144) (d : Fin 128) :
    Read.val_main_v16 (F := Ideal) x t (ix2 i d) = Cert.PixelLoss.picked (counts t) x t i d := by
  unfold Read.val_main_v16
  rw [gather_row]
  have hk : (⟨min (Read.val_main_v15 (F := Ideal) t (ix2 i 0)).toInt.toNat 18, by omega⟩ : Fin 19)
      = ⟨(t (ix1 i)).toNat, hT i⟩ := by
    refine Fin.ext ?_
    show min (Read.val_main_v15 (F := Ideal) t (ix2 i 0)).toInt.toNat 18 = (t (ix1 i)).toNat
    rw [v15_at t hT, toInt_label _ (hT i)]; have := hT i; omega
  rw [hk, v9_at x t hT]
  unfold Cert.PixelLoss.picked
  rw [Cert.PixelLoss.sum_hot_mul _ (hT i)]
  unfold Cert.PixelLoss.center
  rw [if_pos (counts_pos t hT i)]

/-! ## The distances and their mean -/

theorem v19_at (x : FVec Ideal S262144x128 .f32) (t : IVec S262144 32)
    (hT : ∀ i : Fin 262144, (t (ix1 i)).toNat < 19) (i : Fin 262144) :
    Read.val_main_v19 (F := Ideal) x t (ix1 i)
      = 0 + ∑ d : Fin 128, (x (ix2 i d) - Cert.PixelLoss.picked (counts t) x t i d)
          * (x (ix2 i d) - Cert.PixelLoss.picked (counts t) x t i d) := by
  rw [Read.val_main_v19_apply, Read.val_main_cst_3_apply]
  refine congrArg₂ (· + ·) Ideal.ofBits_zero_f32 ?_
  refine Finset.sum_congr rfl fun d _ => ?_
  have hi : Read.idx_main_v19 (ix1 i) d = ix2 i d := by
    funext a; match a with | ⟨0, _⟩ => rfl | ⟨1, _⟩ => rfl
  rw [hi, Read.val_main_v18_apply, Read.val_main_v17_apply, v16_at x t hT]
  rfl

theorem v20_at (x : FVec Ideal S262144x128 .f32) (t : IVec S262144 32)
    (hT : ∀ i : Fin 262144, (t (ix1 i)).toNat < 19) (i : Fin 262144) :
    Read.val_main_v20 (F := Ideal) x t (ix1 i) = Cert.PixelLoss.dist (counts t) x t i := by
  rw [Read.val_main_v20_apply, v19_at x t hT, zero_add]; rfl

/-- For labels that are class numbers, the reference's result is the loss at its own counts. -/
theorem ref_eq_loss (x : FVec Ideal S262144x128 .f32) (t : IVec S262144 32)
    (hT : ∀ i : Fin 262144, (t (ix1 i)).toNat < 19) :
    Cert.ReferenceIdeal.Read.val_main_v22 (F := Ideal) x t = fun _ => Cert.PixelLoss.loss (counts t) x t := by
  funext j
  rw [Read.val_main_v22_apply, Read.val_main_v21_apply, Read.val_main_cst_4_apply, Read.val_main_cst_5_apply, sum_idx1]
  unfold Cert.PixelLoss.loss
  refine congrArg₂ Ideal.div ?_ rfl
  refine (congrArg₂ (· + ·) Ideal.ofBits_zero_f32 (Finset.sum_congr rfl fun i _ => v20_at x t hT i)).trans ?_
  exact zero_add _

end Cert.ReferenceIdeal.RefValue

end
-- ==== Proof.PreRange.lean ====
/-
  The precondition says every label is a class number: from "the printed predicate is all ones" to
  "every label word, read unsigned, is below 19" (a word in [0, 19) signed is below 19 unsigned).
-/
import proofs.«416456_j77309412138_3_alg».proof.Pre_finite_inputs
import proofs.«416456_j77309412138_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx

/-- A 32-bit word in [0, 19) as a signed integer is below 19 as an unsigned one. -/
theorem toNat_lt_of_signed_range (w : BitVec 32) (h0 : IntOp.cmpi .sge w (0#32) = 1#1) (h19 : IntOp.cmpi .slt w (19#32) = 1#1) :
    w.toNat < 19 := by
  unfold IntOp.cmpi at h0 h19
  rw [StableHlo.Predicate.ofBool_eq_one_iff] at h0 h19
  simp only [BitVec.slt, BitVec.sle, decide_eq_true_eq] at h0 h19
  have h32 := w.isLt
  have e0 : (0#32 : BitVec 32).toInt = 0 := by decide
  have e19 : (19#32 : BitVec 32).toInt = 19 := by decide
  rw [e0] at h0
  rw [e19] at h19
  unfold BitVec.toInt at h0 h19
  split at h19 <;> omega

/-- Under the precondition every label is a class number. -/
theorem labels_in_range [Cert.Pre_finite_inputs.Facts] (x : FVec Ideal S262144x128 .f32) (t : IVec S262144 32)
    (h : Cert.Pre_finite_inputs.fn (F := Ideal) x t = fun _ => 1#1) :
    ∀ i : Fin 262144, (t (ix1 i)).toNat < 19 := by
  intro i
  -- the scalar shape has one index
  haveI : Subsingleton S_.Idx := ⟨fun a b => funext fun d => d.elim0⟩
  -- the predicate at its one index: the conjunction of the two reductions is 1
  have e := congrFun h ValueIdx.ix0
  unfold Cert.Pre_finite_inputs.fn at e
  -- the second conjunct: the reduction by "and" of the label mask is 1
  have e2 := (IntOp.andi_eq_one.1 e).2
  -- so the label mask is 1 at every index, in particular at i
  have e3 := Host.reduce_andi_all _ _ _ _ _ e2 (ix1 i)
  -- the mask at i is the conjunction of the two signed comparisons of label i with the broadcast constants
  simp only [andi, cmpi, broadcastInDim, constantI] at e3
  obtain ⟨h0, h19⟩ := IntOp.andi_eq_one.1 e3
  exact toNat_lt_of_signed_range _ h0 h19

end Cert.Pre_finite_inputs.Range

end
-- ==== Proof.lean ====
/-
  The certificate: a two-pass kernel for the mean distance of each row to the mean of the rows sharing its label,
  against the plain jnp reference, over the extended reals, for labels that are class numbers (0 ≤ label < 19).

  Both programs compute the loss of Proof/Spec.lean. The kernel's first pass sums the rows by class with a one-hot
  product, row block by row block (Proof/Pass1Value.lean); the host operations between the passes divide by the class
  counts where they are positive (Proof/KernelGlue.lean); the second pass picks each row's class mean with the same
  one-hot product and sums the distances (Proof/Pass2Value.lean); Proof/KernelValue.lean puts these together. The
  reference scatters, divides and gathers (Proof/RefValue.lean); for a label that is a class number the scattered
  sum is the one-hot sum, the label's own count is positive, and the gathered row is the one-hot pick. The
  precondition gives the range of the labels (Proof/PreRange.lean). No step needs the inputs finite: a one-hot weight
  is 0 or 1, and 0 · y = 0, 1 · y = y hold for every extended real; the sums are re-ordered, which is free in a
  commutative monoid.
-/
import proofs.«416456_j77309412138_3_alg».proof.Defs
import proofs.«416456_j77309412138_3_alg».proof.Proof.Gen.Kernel
import proofs.«416456_j77309412138_3_alg».proof.Proof.Gen.Kernel.Frame
import proofs.«416456_j77309412138_3_alg».proof.Proof.Gen.KernelIdeal
import proofs.«416456_j77309412138_3_alg».proof.Proof.Gen.KernelIdeal.Frame
import proofs.«416456_j77309412138_3_alg».proof.Proof.Gen.ReferenceIdeal
import proofs.«416456_j77309412138_3_alg».proof.Proof.Gen.ReferenceIdeal.Run
import proofs.«416456_j77309412138_3_alg».proof.Proof.Gen.ReferenceIdeal.Read
import proofs.«416456_j77309412138_3_alg».proof.Proof.Gen.Pre_finite_inputs
import proofs.«416456_j77309412138_3_alg».proof.Proof.KernelIdealRun
import proofs.«416456_j77309412138_3_alg».proof.Proof.KernelValue
import proofs.«416456_j77309412138_3_alg».proof.Proof.RefValue
import proofs.«416456_j77309412138_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the argument arrays, at class counts that are one and the same scatter-add. -/
theorem algebraic : Cert.algebraic_KernelIdeal_ReferenceIdeal := by
  intro m ρ m' ρ' hpre hagree
  refine ⟨fun c => Cert.KernelIdeal.Gen.W8 m ρ c (Proc.devRef .tc Cert.KernelIdeal.main_v18),
    Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  have hT := Cert.Pre_finite_inputs.Range.labels_in_range _ _ (hpre c)
  rw [Cert.ReferenceIdeal.Read.val_main_v22_eq, (hagree c).1, (hagree c).2,
    Cert.ReferenceIdeal.RefValue.ref_eq_loss _ _ hT]
  show _ = Cert.KernelIdeal.Gen.W8 m ρ c (Proc.devRef .tc Cert.KernelIdeal.main_v18)
  rw [Cert.KernelIdeal.Value.kernel_value]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
